-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S200000x64 : Shape := ⟨2, ![200000, 64]⟩
abbrev S1500000x1 : Shape := ⟨2, ![1500000, 1]⟩
abbrev S64x64 : Shape := ⟨2, ![64, 64]⟩
abbrev S64 : Shape := ⟨1, ![64]⟩
abbrev S1500000 : Shape := ⟨1, ![1500000]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S1500000x1 : S_.BroadcastsInDim S1500000x1 (![] : Fin 0 → Fin S1500000x1.rank)
  reducesTo_S1500000x1_S_d0_1 : S1500000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x64 .f32) (main_arg7 : FVec F S64 .f32) (main_v13 : IVec S_ 1) (main_v16 : IVec S1500000x1 1) : IVec S_ 1 :=
  let main_c_5 : IVec S_ 1 := constantI S_ 1 1#1
  let main_v17 : IVec S_ 1 := (fun x v => Host.reduce IntOp.andi x v reducesTo_S1500000x1_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S500000x64 .f32) (main_arg1 : FVec F S200000x64 .f32) (main_arg2 : FVec F S1500000x1 .f32) (main_arg3 : FVec F S1500000x1 .f32) (main_arg4 : FVec F S64x64 .f32) (main_arg5 : FVec F S64 .f32) (main_arg6 : FVec F S64x64 .f32) (main_arg7 : FVec F S64 .f32) (main_arg8 : IVec S1500000 32) (main_arg9 : IVec S1500000 32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S200000x64 .f32 := Host.absf main_arg1
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S1500000x1 .f32 := Host.absf main_arg2
  let main_cst_2 : FVec F S_ .f32 := constant S_ .f32 0x7F800000#32
  let main_v10 : FVec F S1500000x1 .f32 := broadcastInDim S1500000x1 ![] bcast_S_S1500000x1 main_cst_2
  let main_v11 : IVec S1500000x1 1 := cmpf .olt main_v9 main_v10
  let main_c_3 : IVec S_ 1 := constantI S_ 1 1#1
  let main_v12 : IVec S_ 1 := (fun x v => Host.reduce IntOp.andi x v reducesTo_S1500000x1_S_d0_1 h_S_) main_v11 main_c_3
  let main_v13 : IVec S_ 1 := andi main_v8 main_v12
  let main_v14 : FVec F S1500000x1 .f32 := Host.absf main_arg3
  let main_cst_4 : FVec F S_ .f32 := constant S_ .f32 0x7F800000#32
  let main_v15 : FVec F S1500000x1 .f32 := broadcastInDim S1500000x1 ![] bcast_S_S1500000x1 main_cst_4
  let main_v16 : IVec S1500000x1 1 := cmpf .olt main_v14 main_v15
  fn_part1 (F := F) main_arg4 main_arg5 main_arg6 main_arg7 main_v13 main_v16
-- ==== Kernel.lean ====
abbrev S500000x64 : Shape := ⟨2, ![500000, 64]⟩
abbrev S200000x64 : Shape := ⟨2, ![200000, 64]⟩
abbrev S1500000x1 : Shape := ⟨2, ![1500000, 1]⟩
abbrev S64x64 : Shape := ⟨2, ![64, 64]⟩
abbrev S64 : Shape := ⟨1, ![64]⟩
abbrev S1500000 : Shape := ⟨1, ![1500000]⟩
abbrev S_ : Shape := ⟨0, ![]⟩
abbrev S1500000x64 : Shape := ⟨2, ![1500000, 64]⟩
abbrev S1500000x2 : Shape := ⟨2, ![1500000, 2]⟩
abbrev S1x64 : Shape := ⟨2, ![1, 64]⟩
abbrev S3000x64 : Shape := ⟨2, ![3000, 64]⟩
abbrev S3000x2 : Shape := ⟨2, ![3000, 2]⟩
abbrev S3000x1 : Shape := ⟨2, ![3000, 1]⟩
abbrev S4000x64 : Shape := ⟨2, ![4000, 64]⟩
abbrev S4000 : Shape := ⟨1, ![4000]⟩
abbrev S4000x1 : Shape := ⟨2, ![4000, 1]⟩
abbrev S700000x64 : Shape := ⟨2, ![700000, 64]⟩

abbrev nBuf : Space → Nat
  | .hbm => 46
  | .vmem => 30
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S1500000x1, .f32⟩
  | .hbm, ⟨3, _⟩ => ⟨S1500000x1, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1500000, .i32⟩
  | .hbm, ⟨9, _⟩ => ⟨S1500000, .i32⟩
  | .hbm, ⟨10, _⟩ => ⟨S_, .i32⟩
  | .hbm, ⟨11, _⟩ => ⟨S1500000, .i32⟩
  | .hbm, ⟨12, _⟩ => ⟨S1500000, .i1⟩
  | .hbm, ⟨13, _⟩ => ⟨S_, .i32⟩
  | .hbm, ⟨14, _⟩ => ⟨S1500000, .i32⟩
  | .hbm, ⟨15, _⟩ => ⟨S1500000, .i32⟩
  | .hbm, ⟨16, _⟩ => ⟨S1500000, .i32⟩
  | .hbm, ⟨17, _⟩ => ⟨S1500000x1, .i32⟩
  | .hbm, ⟨18, _⟩ => ⟨S1500000x64, .f32⟩
  | .hbm, ⟨19, _⟩ => ⟨S_, .i32⟩
  | .hbm, ⟨20, _⟩ => ⟨S1500000, .i32⟩
  | .hbm, ⟨21, _⟩ => ⟨S1500000, .i1⟩
  | .hbm, ⟨22, _⟩ => ⟨S_, .i32⟩
  | .hbm, ⟨23, _⟩ => ⟨S1500000, .i32⟩
  | .hbm, ⟨24, _⟩ => ⟨S1500000, .i32⟩
  | .hbm, ⟨25, _⟩ => ⟨S1500000, .i32⟩
  | .hbm, ⟨26, _⟩ => ⟨S1500000x1, .i32⟩
  | .hbm, ⟨27, _⟩ => ⟨S1500000x64, .f32⟩
  | .hbm, ⟨28, _⟩ => ⟨S1500000x2, .f32⟩
  | .hbm, ⟨29, _⟩ => ⟨S1x64, .f32⟩
  | .hbm, ⟨30, _⟩ => ⟨S1x64, .f32⟩
  | .hbm, ⟨31, _⟩ => ⟨S1500000x64, .f32⟩
  | .hbm, ⟨32, _⟩ => ⟨S1500000x64, .f32⟩
  | .hbm, ⟨33, _⟩ => ⟨S_, .f32⟩
  | .hbm, ⟨34, _⟩ => ⟨S200000x64, .f32⟩
  | .hbm, ⟨35, _⟩ => ⟨S1500000x1, .i32⟩
  | .hbm, ⟨36, _⟩ => ⟨S200000x64, .f32⟩
  | .hbm, ⟨37, _⟩ => ⟨S_, .f32⟩
  | .hbm, ⟨38, _⟩ => ⟨S500000x64, .f32⟩
  | .hbm, ⟨39, _⟩ => ⟨S1500000x1, .i32⟩
  | .hbm, ⟨40, _⟩ => ⟨S500000x64, .f32⟩
  | .hbm, ⟨41, _⟩ => ⟨S1x64, .f32⟩
  | .hbm, ⟨42, _⟩ => ⟨S500000x64, .f32⟩
  | .hbm, ⟨43, _⟩ => ⟨S1x64, .f32⟩
  | .hbm, ⟨44, _⟩ => ⟨S200000x64, .f32⟩
  | .hbm, ⟨45, _⟩ => ⟨S700000x64, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x2, .f32⟩
  | .local _ .vmem, ⟨5, _⟩ => ⟨S3000x2, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S3000x64, .f32⟩
  | .local _ .vmem, ⟨11, _⟩ => ⟨S3000x64, .f32⟩
  | .local _ .vmem, ⟨12, _⟩ => ⟨S3000x64, .f32⟩
  | .local _ .vmem, ⟨13, _⟩ => ⟨S3000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S1x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S64x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1500000 : S_.BroadcastsInDim S1500000 (![] : Fin 0 → Fin S1500000.rank)
  bcast_S1500000_S1500000x1_0 : S1500000.BroadcastsInDim S1500000x1 (![0] : Fin 1 → Fin S1500000x1.rank)
  concatenates_S1500000x1_S1500000x1_S1500000x2_d1 : Shape.Concatenates [S1500000x1, S1500000x1] S1500000x2 1
  shapeCasts_S64_S1x64 : S64.ShapeCasts S1x64
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  inb_S3000x2_S3000x2_0_0 : ∀ a, (![0, 0] : Fin 2 → Nat) a + S3000x2.size a ≤ S3000x2.size a
  h_S3000x2 : 0 < S3000x2.numel
  shapeCasts_S3000x2_S3000x2 : S3000x2.ShapeCasts S3000x2
  slices_S3000x2_o0_0_S3000x1 : S3000x2.Slices ![0, 0] S3000x1
  slices_S3000x2_o0_1_S3000x1 : S3000x2.Slices ![0, 1] S3000x1
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3000x64 : S1x64.Broadcasts S3000x64
  broadcasts_S3000x1_S3000x64 : S3000x1.Broadcasts S3000x64
  bcast_S_S200000x64 : S_.BroadcastsInDim S200000x64 (![] : Fin 0 → Fin S200000x64.rank)
  bcast_S_S500000x64 : S_.BroadcastsInDim S500000x64 (![] : Fin 0 → Fin S500000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  reduces_S4000x64_S4000 : S4000x64.Reduces [1] S4000
  shapeCasts_S4000_S4000x1 : S4000.ShapeCasts S4000x1
  broadcasts_S4000x1_S4000x64 : S4000x1.Broadcasts S4000x64
  concatenates_S500000x64_S200000x64_S700000x64_d0 : Shape.Concatenates [S500000x64, S200000x64] S700000x64 0
  gather_S500000x64_S1500000x1_S1500000x64_1_0_n_n_0_1_164_wf : GatherDims.WF S500000x64 S1500000x1 S1500000x64 [1] [0] [] [0] [] 1 ![1, 64]
  gather_S200000x64_S1500000x1_S1500000x64_1_0_n_n_0_1_164_wf : GatherDims.WF S200000x64 S1500000x1 S1500000x64 [1] [0] [] [0] [] 1 ![1, 64]
  dot_S3000x64_S64x64_S3000x64_1_0_0_1_n_n_wf : DotDims.WF S3000x64 S64x64 S3000x64 [1] [0] [0] [1] [] []
  scatter_S200000x64_S1500000x1_S1500000x64_1_0_0_1_wf : ScatterDims.WF S200000x64 S1500000x1 S1500000x64 [1] [0] [0] 1
  scatter_S500000x64_S1500000x1_S1500000x64_1_0_0_1_wf : ScatterDims.WF S500000x64 S1500000x1 S1500000x64 [1] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S1500000x64.size a
  hwx0_0 : ∀ i : grid0.Coords, EltTy.bits .f32 = 32 ∨ (Rect.block (s := S1500000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S1500000x64.size a
  hwx0_1 : ∀ i : grid0.Coords, EltTy.bits .f32 = 32 ∨ (Rect.block (s := S1500000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x2.size a ≤ S1500000x2.size a
  hwx0_2 : ∀ i : grid0.Coords, EltTy.bits .f32 = 32 ∨ (Rect.block (s := S1500000x2) S3000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x64.size a ≤ S1500000x64.size a
  hwx0_7 : ∀ i : grid0.Coords, EltTy.bits .f32 = 32 ∨ (Rect.block (s := S1500000x64) S3000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3000x64.size a ≤ S1500000x64.size a
  hwx0_8 : ∀ i : grid0.Coords, EltTy.bits .f32 = 32 ∨ (Rect.block (s := S1500000x64) S3000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S500000x64.size a
  hwx1_0 : ∀ i : grid1.Coords, EltTy.bits .f32 = 32 ∨ (Rect.block (s := S500000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S500000x64.size a
  hwx1_1 : ∀ i : grid1.Coords, EltTy.bits .f32 = 32 ∨ (Rect.block (s := S500000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S500000x64.size a
  hwx1_4 : ∀ i : grid1.Coords, EltTy.bits .f32 = 32 ∨ (Rect.block (s := S500000x64) S4000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S200000x64.size a
  hwx2_4 : ∀ i : grid2.Coords, EltTy.bits .f32 = 32 ∨ (Rect.block (s := S200000x64) S4000x64.size (cc2_transform_4 i) (hinb2_4 i)).WholeWords (EltTy.packing .f32)

variable [Facts₀]

def gather_S500000x64_S1500000x1_S1500000x64_1_0_n_n_0_1_164 : GatherDims S500000x64 S1500000x1 S1500000x64 where
  offsetDims := [1]
  collapsedSliceDims := [0]
  operandBatchingDims := []
  startIndicesBatchingDims := []
  startIndexMap := [0]
  indexVectorDim := 1
  sliceSizes := ![1, 64]
  wf := gather_S500000x64_S1500000x1_S1500000x64_1_0_n_n_0_1_164_wf
def gather_S200000x64_S1500000x1_S1500000x64_1_0_n_n_0_1_164 : GatherDims S200000x64 S1500000x1 S1500000x64 where
  offsetDims := [1]
  collapsedSliceDims := [0]
  operandBatchingDims := []
  startIndicesBatchingDims := []
  startIndexMap := [0]
  indexVectorDim := 1
  sliceSizes := ![1, 64]
  wf := gather_S200000x64_S1500000x1_S1500000x64_1_0_n_n_0_1_164_wf
def dot_S3000x64_S64x64_S3000x64_1_0_0_1_n_n : DotDims S3000x64 S64x64 S3000x64 where
  lhsContracting := [1]
  rhsContracting := [0]
  lhsNonContracting := [0]
  rhsNonContracting := [1]
  lhsBatch := []
  rhsBatch := []
  wf := dot_S3000x64_S64x64_S3000x64_1_0_0_1_n_n_wf
def scatter_S200000x64_S1500000x1_S1500000x64_1_0_0_1 : ScatterDims S200000x64 S1500000x1 S1500000x64 where
  updateWindowDims := [1]
  insertedWindowDims := [0]
  scatterDimsToOperandDims := [0]
  indexVectorDim := 1
  wf := scatter_S200000x64_S1500000x1_S1500000x64_1_0_0_1_wf
def scatter_S500000x64_S1500000x1_S1500000x64_1_0_0_1 : ScatterDims S500000x64 S1500000x1 S1500000x64 where
  updateWindowDims := [1]
  insertedWindowDims := [0]
  scatterDimsToOperandDims := [0]
  indexVectorDim := 1
  wf := scatter_S500000x64_S1500000x1_S1500000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_v6) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S3000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_0) S3000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17_1) S3000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S500000x64 : Shape := ⟨2, ![500000, 64]⟩
abbrev S200000x64 : Shape := ⟨2, ![200000, 64]⟩
abbrev S1500000x1 : Shape := ⟨2, ![1500000, 1]⟩
abbrev S64x64 : Shape := ⟨2, ![64, 64]⟩
abbrev S64 : Shape := ⟨1, ![64]⟩
abbrev S1500000 : Shape := ⟨1, ![1500000]⟩
abbrev S_ : Shape := ⟨0, ![]⟩
abbrev S1500000x64 : Shape := ⟨2, ![1500000, 64]⟩
abbrev S1x64 : Shape := ⟨2, ![1, 64]⟩
abbrev S500000 : Shape := ⟨1, ![500000]⟩
abbrev S500000x1 : Shape := ⟨2, ![500000, 1]⟩
abbrev S200000 : Shape := ⟨1, ![200000]⟩
abbrev S200000x1 : Shape := ⟨2, ![200000, 1]⟩
abbrev S700000x64 : Shape := ⟨2, ![700000, 64]⟩

abbrev nBuf : Space → Nat
  | .hbm => 104
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S200000x64, .f32⟩
  | .hbm, ⟨2, _⟩ => ⟨S1500000x1, .f32⟩
  | .hbm, ⟨3, _⟩ => ⟨S1500000x1, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1500000, .i32⟩
  | .hbm, ⟨9, _⟩ => ⟨S1500000, .i32⟩
  | .hbm, ⟨10, _⟩ => ⟨S_, .i32⟩
  | .hbm, ⟨11, _⟩ => ⟨S1500000, .i32⟩
  | .hbm, ⟨12, _⟩ => ⟨S1500000, .i1⟩
  | .hbm, ⟨13, _⟩ => ⟨S_, .i32⟩
  | .hbm, ⟨14, _⟩ => ⟨S1500000, .i32⟩
  | .hbm, ⟨15, _⟩ => ⟨S1500000, .i32⟩
  | .hbm, ⟨16, _⟩ => ⟨S1500000, .i32⟩
  | .hbm, ⟨17, _⟩ => ⟨S1500000x1, .i32⟩
  | .hbm, ⟨18, _⟩ => ⟨S1500000x64, .f32⟩
  | .hbm, ⟨19, _⟩ => ⟨S_, .i32⟩
  | .hbm, ⟨20, _⟩ => ⟨S1500000, .i32⟩
  | .hbm, ⟨21, _⟩ => ⟨S1500000, .i1⟩
  | .hbm, ⟨22, _⟩ => ⟨S_, .i32⟩
  | .hbm, ⟨23, _⟩ => ⟨S1500000, .i32⟩
  | .hbm, ⟨24, _⟩ => ⟨S1500000, .i32⟩
  | .hbm, ⟨25, _⟩ => ⟨S1500000, .i32⟩
  | .hbm, ⟨26, _⟩ => ⟨S1500000x1, .i32⟩
  | .hbm, ⟨27, _⟩ => ⟨S1500000x64, .f32⟩
  | .hbm, ⟨28, _⟩ => ⟨S1500000x64, .f32⟩
  | .hbm, ⟨29, _⟩ => ⟨S1500000x64, .f32⟩
  | .hbm, ⟨30, _⟩ => ⟨S1x64, .f32⟩
  | .hbm, ⟨31, _⟩ => ⟨S1500000x64, .f32⟩
  | .hbm, ⟨32, _⟩ => ⟨S1500000x64, .f32⟩
  | .hbm, ⟨33, _⟩ => ⟨S1500000x64, .f32⟩
  | .hbm, ⟨34, _⟩ => ⟨S1x64, .f32⟩
  | .hbm, ⟨35, _⟩ => ⟨S1500000x64, .f32⟩
  | .hbm, ⟨36, _⟩ => ⟨S1500000x64, .f32⟩
  | .hbm, ⟨37, _⟩ => ⟨S1500000x64, .f32⟩
  | .hbm, ⟨38, _⟩ => ⟨S1500000x64, .f32⟩
  | .hbm, ⟨39, _⟩ => ⟨S1500000x64, .f32⟩
  | .hbm, ⟨40, _⟩ => ⟨S_, .f32⟩
  | .hbm, ⟨41, _⟩ => ⟨S200000x64, .f32⟩
  | .hbm, ⟨42, _⟩ => ⟨S1500000x1, .i32⟩
  | .hbm, ⟨43, _⟩ => ⟨S200000x64, .f32⟩
  | .hbm, ⟨44, _⟩ => ⟨S200000x64, .f32⟩
  | .hbm, ⟨45, _⟩ => ⟨S1x64, .f32⟩
  | .hbm, ⟨46, _⟩ => ⟨S200000x64, .f32⟩
  | .hbm, ⟨47, _⟩ => ⟨S200000x64, .f32⟩
  | .hbm, ⟨48, _⟩ => ⟨S200000x64, .f32⟩
  | .hbm, ⟨49, _⟩ => ⟨S1500000x64, .f32⟩
  | .hbm, ⟨50, _⟩ => ⟨S1x64, .f32⟩
  | .hbm, ⟨51, _⟩ => ⟨S1500000x64, .f32⟩
  | .hbm, ⟨52, _⟩ => ⟨S1500000x64, .f32⟩
  | .hbm, ⟨53, _⟩ => ⟨S1500000x64, .f32⟩
  | .hbm, ⟨54, _⟩ => ⟨S1x64, .f32⟩
  | .hbm, ⟨55, _⟩ => ⟨S1500000x64, .f32⟩
  | .hbm, ⟨56, _⟩ => ⟨S1500000x64, .f32⟩
  | .hbm, ⟨57, _⟩ => ⟨S1500000x64, .f32⟩
  | .hbm, ⟨58, _⟩ => ⟨S1500000x64, .f32⟩
  | .hbm, ⟨59, _⟩ => ⟨S1500000x64, .f32⟩
  | .hbm, ⟨60, _⟩ => ⟨S_, .f32⟩
  | .hbm, ⟨61, _⟩ => ⟨S500000x64, .f32⟩
  | .hbm, ⟨62, _⟩ => ⟨S1500000x1, .i32⟩
  | .hbm, ⟨63, _⟩ => ⟨S500000x64, .f32⟩
  | .hbm, ⟨64, _⟩ => ⟨S500000x64, .f32⟩
  | .hbm, ⟨65, _⟩ => ⟨S1x64, .f32⟩
  | .hbm, ⟨66, _⟩ => ⟨S500000x64, .f32⟩
  | .hbm, ⟨67, _⟩ => ⟨S500000x64, .f32⟩
  | .hbm, ⟨68, _⟩ => ⟨S500000x64, .f32⟩
  | .hbm, ⟨69, _⟩ => ⟨S_, .f32⟩
  | .hbm, ⟨70, _⟩ => ⟨S500000x64, .f32⟩
  | .hbm, ⟨71, _⟩ => ⟨S500000x64, .i1⟩
  | .hbm, ⟨72, _⟩ => ⟨S_, .f32⟩
  | .hbm, ⟨73, _⟩ => ⟨S500000x64, .f32⟩
  | .hbm, ⟨74, _⟩ => ⟨S500000x64, .f32⟩
  | .hbm, ⟨75, _⟩ => ⟨S500000x64, .f32⟩
  | .hbm, ⟨76, _⟩ => ⟨S500000x64, .f32⟩
  | .hbm, ⟨77, _⟩ => ⟨S_, .f32⟩
  | .hbm, ⟨78, _⟩ => ⟨S500000, .f32⟩
  | .hbm, ⟨79, _⟩ => ⟨S500000x1, .f32⟩
  | .hbm, ⟨80, _⟩ => ⟨S500000x1, .f32⟩
  | .hbm, ⟨81, _⟩ => ⟨S_, .f32⟩
  | .hbm, ⟨82, _⟩ => ⟨S500000x1, .f32⟩
  | .hbm, ⟨83, _⟩ => ⟨S500000x1, .f32⟩
  | .hbm, ⟨84, _⟩ => ⟨S500000x64, .f32⟩
  | .hbm, ⟨85, _⟩ => ⟨S500000x64, .f32⟩
  | .hbm, ⟨86, _⟩ => ⟨S_, .f32⟩
  | .hbm, ⟨87, _⟩ => ⟨S200000x64, .f32⟩
  | .hbm, ⟨88, _⟩ => ⟨S200000x64, .i1⟩
  | .hbm, ⟨89, _⟩ => ⟨S_, .f32⟩
  | .hbm, ⟨90, _⟩ => ⟨S200000x64, .f32⟩
  | .hbm, ⟨91, _⟩ => ⟨S200000x64, .f32⟩
  | .hbm, ⟨92, _⟩ => ⟨S200000x64, .f32⟩
  | .hbm, ⟨93, _⟩ => ⟨S200000x64, .f32⟩
  | .hbm, ⟨94, _⟩ => ⟨S_, .f32⟩
  | .hbm, ⟨95, _⟩ => ⟨S200000, .f32⟩
  | .hbm, ⟨96, _⟩ => ⟨S200000x1, .f32⟩
  | .hbm, ⟨97, _⟩ => ⟨S200000x1, .f32⟩
  | .hbm, ⟨98, _⟩ => ⟨S_, .f32⟩
  | .hbm, ⟨99, _⟩ => ⟨S200000x1, .f32⟩
  | .hbm, ⟨100, _⟩ => ⟨S200000x1, .f32⟩
  | .hbm, ⟨101, _⟩ => ⟨S200000x64, .f32⟩
  | .hbm, ⟨102, _⟩ => ⟨S200000x64, .f32⟩
  | .hbm, ⟨103, _⟩ => ⟨S700000x64, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_4 : Ref sig .tc := ⟨.hbm, 69, rfl⟩
abbrev main_v53 : Ref sig .tc := ⟨.hbm, 70, rfl⟩
abbrev main_v54 : Ref sig .tc := ⟨.hbm, 71, rfl⟩
abbrev main_cst_5 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call1_v0 : Ref sig .tc := ⟨.hbm, 76, rfl⟩
abbrev main_call1_cst : Ref sig .tc := ⟨.hbm, 77, rfl⟩
abbrev main_call1_v1 : Ref sig .tc := ⟨.hbm, 78, rfl⟩
abbrev main_call1_v2 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_7 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call3_v0 : Ref sig .tc := ⟨.hbm, 93, rfl⟩
abbrev main_call3_cst : Ref sig .tc := ⟨.hbm, 94, rfl⟩
abbrev main_call3_v1 : Ref sig .tc := ⟨.hbm, 95, rfl⟩
abbrev main_call3_v2 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]

class Facts₀ : Prop where
  bcast_S_S1500000 : S_.BroadcastsInDim S1500000 (![] : Fin 0 → Fin S1500000.rank)
  bcast_S1500000_S1500000x1_0 : S1500000.BroadcastsInDim S1500000x1 (![0] : Fin 1 → Fin S1500000x1.rank)
  bcast_S64_S1x64_1 : S64.BroadcastsInDim S1x64 (![1] : Fin 1 → Fin S1x64.rank)
  bcast_S1x64_S1500000x64_0_1 : S1x64.BroadcastsInDim S1500000x64 (![0, 1] : Fin 2 → Fin S1500000x64.rank)
  bcast_S1500000x1_S1500000x64_0_1 : S1500000x1.BroadcastsInDim S1500000x64 (![0, 1] : Fin 2 → Fin S1500000x64.rank)
  bcast_S_S200000x64 : S_.BroadcastsInDim S200000x64 (![] : Fin 0 → Fin S200000x64.rank)
  bcast_S1x64_S200000x64_0_1 : S1x64.BroadcastsInDim S200000x64 (![0, 1] : Fin 2 → Fin S200000x64.rank)
  bcast_S_S500000x64 : S_.BroadcastsInDim S500000x64 (![] : Fin 0 → Fin S500000x64.rank)
  bcast_S1x64_S500000x64_0_1 : S1x64.BroadcastsInDim S500000x64 (![0, 1] : Fin 2 → Fin S500000x64.rank)
  reducesTo_S500000x64_S500000_d1 : S500000x64.ReducesTo [1] S500000
  h_S_ : 0 < S_.numel
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x64_0_1 : S500000x1.BroadcastsInDim S500000x64 (![0, 1] : Fin 2 → Fin S500000x64.rank)
  reducesTo_S200000x64_S200000_d1 : S200000x64.ReducesTo [1] S200000
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  concatenates_S500000x64_S200000x64_S700000x64_d0 : Shape.Concatenates [S500000x64, S200000x64] S700000x64 0
  gather_S500000x64_S1500000x1_S1500000x64_1_0_n_n_0_1_164_wf : GatherDims.WF S500000x64 S1500000x1 S1500000x64 [1] [0] [] [0] [] 1 ![1, 64]
  gather_S200000x64_S1500000x1_S1500000x64_1_0_n_n_0_1_164_wf : GatherDims.WF S200000x64 S1500000x1 S1500000x64 [1] [0] [] [0] [] 1 ![1, 64]
  dot_S1500000x64_S64x64_S1500000x64_1_0_0_1_n_n_wf : DotDims.WF S1500000x64 S64x64 S1500000x64 [1] [0] [0] [1] [] []
  scatter_S200000x64_S1500000x1_S1500000x64_1_0_0_1_wf : ScatterDims.WF S200000x64 S1500000x1 S1500000x64 [1] [0] [0] 1
  dot_S200000x64_S64x64_S200000x64_1_0_0_1_n_n_wf : DotDims.WF S200000x64 S64x64 S200000x64 [1] [0] [0] [1] [] []
  scatter_S500000x64_S1500000x1_S1500000x64_1_0_0_1_wf : ScatterDims.WF S500000x64 S1500000x1 S1500000x64 [1] [0] [0] 1
  dot_S500000x64_S64x64_S500000x64_1_0_0_1_n_n_wf : DotDims.WF S500000x64 S64x64 S500000x64 [1] [0] [0] [1] [] []

variable [Facts₀]

def gather_S500000x64_S1500000x1_S1500000x64_1_0_n_n_0_1_164 : GatherDims S500000x64 S1500000x1 S1500000x64 where
  offsetDims := [1]
  collapsedSliceDims := [0]
  operandBatchingDims := []
  startIndicesBatchingDims := []
  startIndexMap := [0]
  indexVectorDim := 1
  sliceSizes := ![1, 64]
  wf := gather_S500000x64_S1500000x1_S1500000x64_1_0_n_n_0_1_164_wf
def gather_S200000x64_S1500000x1_S1500000x64_1_0_n_n_0_1_164 : GatherDims S200000x64 S1500000x1 S1500000x64 where
  offsetDims := [1]
  collapsedSliceDims := [0]
  operandBatchingDims := []
  startIndicesBatchingDims := []
  startIndexMap := [0]
  indexVectorDim := 1
  sliceSizes := ![1, 64]
  wf := gather_S200000x64_S1500000x1_S1500000x64_1_0_n_n_0_1_164_wf
def dot_S1500000x64_S64x64_S1500000x64_1_0_0_1_n_n : DotDims S1500000x64 S64x64 S1500000x64 where
  lhsContracting := [1]
  rhsContracting := [0]
  lhsNonContracting := [0]
  rhsNonContracting := [1]
  lhsBatch := []
  rhsBatch := []
  wf := dot_S1500000x64_S64x64_S1500000x64_1_0_0_1_n_n_wf
def scatter_S200000x64_S1500000x1_S1500000x64_1_0_0_1 : ScatterDims S200000x64 S1500000x1 S1500000x64 where
  updateWindowDims := [1]
  insertedWindowDims := [0]
  scatterDimsToOperandDims := [0]
  indexVectorDim := 1
  wf := scatter_S200000x64_S1500000x1_S1500000x64_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def scatter_S500000x64_S1500000x1_S1500000x64_1_0_0_1 : ScatterDims S500000x64 S1500000x1 S1500000x64 where
  updateWindowDims := [1]
  insertedWindowDims := [0]
  scatterDimsToOperandDims := [0]
  indexVectorDim := 1
  wf := scatter_S500000x64_S1500000x1_S1500000x64_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.Spec.lean ====
/-
  What both programs compute, element by element, on the extended reals.

  One edge carries a row `xu` of user features and a row `xi` of item features (64 entries each). With
  `lin x W b j = (∑ k, x k · W k j) + b j`, the message along the edge at feature `j` is
  `nrm · (lin xa W1 b1 j + lin (xu ⊙ xi) W2 b2 j)`, where `xa` is the sender's row and `nrm` the edge's weight.
  A node's row after aggregation is `h k = leaky (seg k + lin feat W b k)`, with `leaky h = h` when `h > 0` and
  `0.2 · h` otherwise, and the node's output row is `h j / max (sqrt (∑ k, h k · h k)) ε`.
  The two float words `0x3E4CCCCD` (the slope) and `0x2B8CBCCC` (ε) stand for whatever extended reals the ideal
  instance gives them: they are the same words in both programs and are never evaluated.
-/
import Idealize.ShloMosaic.PureOps.Ideal
import Idealize.ShloMosaic.Lib.ValueIdx

noncomputable section

open scoped BigOperators

namespace Cert.Spec

open Idealize.ShloMosaic Idealize.ShloMosaic.ValueIdx

/-- A 64 × 64 weight matrix, indexed (input feature, output feature). -/
abbrev SW : Shape := ⟨2, ![64, 64]⟩

/-- `x · W + b` at output feature `j`, for one row `x`. -/
def lin (x : Fin 64 → EReal) (W : SW.Idx → EReal) (b : Fin 64 → EReal) (j : Fin 64) : EReal :=
  (∑ k : Fin 64, x k * W (ix2 k j)) + b j

/-- The message along one edge at feature `j`: the edge's weight times the sender's linear image plus the
    interaction term's. -/
def msg (nrm : EReal) (xa prod : Fin 64 → EReal) (W1 : SW.Idx → EReal) (b1 : Fin 64 → EReal)
    (W2 : SW.Idx → EReal) (b2 : Fin 64 → EReal) (j : Fin 64) : EReal :=
  nrm * (lin xa W1 b1 j + lin prod W2 b2 j)

/-- LeakyReLU with the slope word `0x3E4CCCCD`: `h` where `h > 0`, the slope times `h` elsewhere. -/
def leaky (h : EReal) : EReal :=
  Scalar.select (Ideal.cmp .ogt h (Ideal.ofBits .f32 0x00000000#32)) h (Ideal.ofBits .f32 0x3E4CCCCD#32 * h)

/-- A node's activated row at feature `k`: the aggregated messages plus the node's own linear image, through LeakyReLU. -/
def act (f s : Fin 64 → EReal) (W : SW.Idx → EReal) (b : Fin 64 → EReal) (k : Fin 64) : EReal :=
  leaky (s k + lin f W b k)

/-- A node's output at feature `j`: its activated row divided by the row's Euclidean norm, the norm floored at ε. -/
def post (f s : Fin 64 → EReal) (W : SW.Idx → EReal) (b : Fin 64 → EReal) (j : Fin 64) : EReal :=
  Ideal.div (act f s W b j)
    (max (Ideal.sqrt (∑ k : Fin 64, act f s W b k * act f s W b k)) (Ideal.ofBits .f32 0x2B8CBCCC#32))

/-- The messages of all `n` edges as one array: edge `e` sends `xa`'s row `e`, weighted by `nrm e`, the interaction
    term being the entrywise product of `xu`'s and `xi`'s rows `e`. -/
def msgArr {n : Nat} (nrm : Fin n → EReal) (xa xu xi : (⟨2, ![n, 64]⟩ : Shape).Idx → EReal)
    (W1 : SW.Idx → EReal) (b1 : Fin 64 → EReal) (W2 : SW.Idx → EReal) (b2 : Fin 64 → EReal) :
    (⟨2, ![n, 64]⟩ : Shape).Idx → EReal :=
  fun i => msg (nrm (i 0)) (fun k => xa (ix2 (i 0) k)) (fun k => xu (ix2 (i 0) k) * xi (ix2 (i 0) k)) W1 b1 W2 b2 (i 1)

/-- The outputs of all `n` nodes as one array: node `r`'s features are `feat`'s row `r`, its aggregated messages
    `seg`'s row `r`. -/
def postArr {n : Nat} (feat seg : (⟨2, ![n, 64]⟩ : Shape).Idx → EReal) (W : SW.Idx → EReal) (b : Fin 64 → EReal) :
    (⟨2, ![n, 64]⟩ : Shape).Idx → EReal :=
  fun i => post (fun k => feat (ix2 (i 0) k)) (fun k => seg (ix2 (i 0) k)) W b (i 1)

end Cert.Spec

end
-- ==== Proof.EdgeRegion.lean ====
/-
  The edge-combine region read as two whole arrays on the extended reals.

  The region walks the 1500000 edges in 500 blocks of 3000. At each block the body forms, for every edge and feature,
  `w · ((x_sender · W1 + b1) + ((x_user ⊙ x_item) · W2 + b2))`: once with the user's row as the sender and the weight in
  column 0 (the user→item messages), once with the item's row and the weight in column 1 (the item→user messages).
  Each entry depends only on its own edge's rows, so block `t` of each output is block `t` of one whole-array function
  of the region's input arrays, and the 500 blocks tile the 1500000 rows.
-/
import proofs.«121884_j32341103739241_1_alg».proof.Proof.Gen.KernelIdeal.Frame
import proofs.«121884_j32341103739241_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## One contraction of the body: a [3000,64] block times a [64,64] matrix, read at an entry -/

/-- The left operand's row coordinate is the output's row. -/
theorem lhs_edge_0 (i : S3000x64.Idx) (q : dot_S3000x64_S64x64_S3000x64_1_0_0_1_n_n.contr.Idx) :
    (dot_S3000x64_S64x64_S3000x64_1_0_0_1_n_n.lhsIdx i q 0).val = (i 0).val := by
  unfold DotDims.lhsIdx
  rw [dif_neg (show ¬(0 : Fin S3000x64.rank) ∈ dot_S3000x64_S64x64_S3000x64_1_0_0_1_n_n.lhsBatch by decide), dif_pos (show (0 : Fin S3000x64.rank) ∈ dot_S3000x64_S64x64_S3000x64_1_0_0_1_n_n.lhsNonContracting by decide)]
  rfl
/-- The left operand's column coordinate is the summation index. -/
theorem lhs_edge_1 (i : S3000x64.Idx) (q : dot_S3000x64_S64x64_S3000x64_1_0_0_1_n_n.contr.Idx) :
    (dot_S3000x64_S64x64_S3000x64_1_0_0_1_n_n.lhsIdx i q 1).val = (q ⟨0, by decide⟩).val :=
  dot_S3000x64_S64x64_S3000x64_1_0_0_1_n_n.lhsIdx_val_of_single rfl i q
/-- The right operand's row coordinate is the summation index. -/
theorem rhs_edge_0 (i : S3000x64.Idx) (q : dot_S3000x64_S64x64_S3000x64_1_0_0_1_n_n.contr.Idx) :
    (dot_S3000x64_S64x64_S3000x64_1_0_0_1_n_n.rhsIdx i q 0).val = (q ⟨0, by decide⟩).val :=
  dot_S3000x64_S64x64_S3000x64_1_0_0_1_n_n.rhsIdx_val_of_single rfl i q
/-- The right operand's column coordinate is the output's column. -/
theorem rhs_edge_1 (i : S3000x64.Idx) (q : dot_S3000x64_S64x64_S3000x64_1_0_0_1_n_n.contr.Idx) :
    (dot_S3000x64_S64x64_S3000x64_1_0_0_1_n_n.rhsIdx i q 1).val = (i 1).val := by
  unfold DotDims.rhsIdx
  rw [dif_neg (show ¬(1 : Fin S64x64.rank) ∈ dot_S3000x64_S64x64_S3000x64_1_0_0_1_n_n.rhsBatch by decide), dif_pos (show (1 : Fin S64x64.rank) ∈ dot_S3000x64_S64x64_S3000x64_1_0_0_1_n_n.rhsNonContracting by decide)]
  rfl

/-- Entry (p, q) of a block's product with a matrix, accumulated from zero, is the sum over the 64 features of
    the block's row p against the matrix's column q. -/
theorem rowTimesMatrix (a : FVec Ideal S3000x64 .bf16) (b : FVec Ideal S64x64 .bf16) (p : Fin 3000) (q : Fin 64) :
    matmul dot_S3000x64_S64x64_S3000x64_1_0_0_1_n_n none a b (constant (F := Ideal) S3000x64 .f32 0x00000000#32) (ix2 p q)
      = ∑ k : Fin 64, a (ix2 p k) * b (ix2 k q) := by
  refine (Ideal.matmul_constant_zero_apply dot_S3000x64_S64x64_S3000x64_1_0_0_1_n_n none a b (ix2 p q)).trans ?_
  rw [← Equiv.sum_comp (contrEquiv1 dot_S3000x64_S64x64_S3000x64_1_0_0_1_n_n 64 rfl rfl).symm]
  refine Finset.sum_congr rfl fun k _ => ?_
  have hk := contrEquiv1_symm_val dot_S3000x64_S64x64_S3000x64_1_0_0_1_n_n 64 rfl rfl k
  have el : dot_S3000x64_S64x64_S3000x64_1_0_0_1_n_n.lhsIdx (ix2 p q) ((contrEquiv1 dot_S3000x64_S64x64_S3000x64_1_0_0_1_n_n 64 rfl rfl).symm k) = ix2 p k := funext fun a => Fin.ext (by
    match a with
    | ⟨0, _⟩ => exact lhs_edge_0 _ _
    | ⟨1, _⟩ => exact (lhs_edge_1 _ _).trans hk)
  have er : dot_S3000x64_S64x64_S3000x64_1_0_0_1_n_n.rhsIdx (ix2 p q) ((contrEquiv1 dot_S3000x64_S64x64_S3000x64_1_0_0_1_n_n 64 rfl rfl).symm k) = ix2 k q := funext fun a => Fin.ext (by
    match a with
    | ⟨0, _⟩ => exact (rhs_edge_0 _ _).trans hk
    | ⟨1, _⟩ => exact rhs_edge_1 _ _)
  rw [el, er]

/-! ## The body's layout operations, read at an entry -/

/-- A [1,64] row laid over the 3000 rows of a block: entry (p, q) is the row's entry q. -/
theorem rowOverBlock (v : FVec Ideal S1x64 .f32) (h : S1x64.Broadcasts S3000x64) (p : Fin 3000) (q : Fin 64) :
    broadcastTo S3000x64 v h (ix2 p q) = v (ix2 (0 : Fin 1) q) :=
  broadcastTo_apply v h (ix2 p q) (ix2 (0 : Fin 1) q) (fun a => by
    match a with
    | ⟨0, _⟩ => rfl
    | ⟨1, _⟩ => rfl)

/-- A [3000,1] column laid over the 64 columns of a block: entry (p, q) is the column's entry p. -/
theorem colOverBlock (v : FVec Ideal S3000x1 .f32) (h : S3000x1.Broadcasts S3000x64) (p : Fin 3000) (q : Fin 64) :
    broadcastTo S3000x64 v h (ix2 p q) = v (ix2 p (0 : Fin 1)) :=
  broadcastTo_apply v h (ix2 p q) (ix2 p (0 : Fin 1)) (fun a => by
    match a with
    | ⟨0, _⟩ => rfl
    | ⟨1, _⟩ => rfl)

/-- Column 0 of the [3000,2] weight block, as a [3000,1] column. -/
theorem weightCol0 (x : FVec Ideal S3000x2 .f32) (h : S3000x2.Slices ![0, 0] S3000x1) (p : Fin 3000) :
    extractStridedSlice S3000x1 ![0, 0] x h (ix2 p (0 : Fin 1)) = x (ix2 p (0 : Fin 2)) :=
  extractStridedSlice_apply ![0, 0] x h (ix2 p (0 : Fin 1)) (ix2 p (0 : Fin 2)) (fun a => by
    match a with
    | ⟨0, _⟩ => exact (Nat.zero_add _).symm
    | ⟨1, _⟩ => rfl)

/-- Column 1 of the [3000,2] weight block, as a [3000,1] column. -/
theorem weightCol1 (x : FVec Ideal S3000x2 .f32) (h : S3000x2.Slices ![0, 1] S3000x1) (p : Fin 3000) :
    extractStridedSlice S3000x1 ![0, 1] x h (ix2 p (0 : Fin 1)) = x (ix2 p (1 : Fin 2)) :=
  extractStridedSlice_apply ![0, 1] x h (ix2 p (0 : Fin 1)) (ix2 p (1 : Fin 2)) (fun a => by
    match a with
    | ⟨0, _⟩ => exact (Nat.zero_add _).symm
    | ⟨1, _⟩ => rfl)

/-! ## The body's arithmetic at an entry of the block -/

/-- Entry (p, q) of what the body stores for the user-to-item direction: edge p's weight in column 0 times the
    sum of the two linear images, the sender's row being the user block's row p. -/
theorem payload_ui (x0 x1 : Vec Ideal S3000x64 .f32) (x2 : Vec Ideal S3000x2 .f32) (x3 x5 : Vec Ideal S64x64 .f32)
    (x4 x6 : Vec Ideal S1x64 .f32) (p : Fin 3000) (q : Fin 64) :
    k0_pay7 (F := Ideal) x0 x1 x2 x3 x5 x4 x6 (ix2 p q)
      = Spec.msg (x2 (ix2 p (0 : Fin 2))) (fun k => x0 (ix2 p k)) (fun k => x0 (ix2 p k) * x1 (ix2 p k)) x3
          (fun k => x4 (ix2 (0 : Fin 1) k)) x5 (fun k => x6 (ix2 (0 : Fin 1) k)) q := by
  unfold k0_pay7 k0_pay6 k0_pay1 k0_pay2 k0_pay3 k0_pay4 k0_pay5 Spec.msg Spec.lin
  simp only [shapeCast_self]
  rw [mulf_apply, addf_apply, addf_apply, addf_apply, colOverBlock, weightCol0, rowTimesMatrix, rowOverBlock,
    rowTimesMatrix, rowOverBlock]
  rfl

/-- The item-to-user direction: the weight is column 1 and the sender's row is the item block's row p; the
    interaction term is the same. -/
theorem payload_iu (x0 x1 : Vec Ideal S3000x64 .f32) (x2 : Vec Ideal S3000x2 .f32) (x3 x5 : Vec Ideal S64x64 .f32)
    (x4 x6 : Vec Ideal S1x64 .f32) (p : Fin 3000) (q : Fin 64) :
    k0_pay8 (F := Ideal) x0 x1 x2 x3 x5 x4 x6 (ix2 p q)
      = Spec.msg (x2 (ix2 p (1 : Fin 2))) (fun k => x1 (ix2 p k)) (fun k => x0 (ix2 p k) * x1 (ix2 p k)) x3
          (fun k => x4 (ix2 (0 : Fin 1) k)) x5 (fun k => x6 (ix2 (0 : Fin 1) k)) q := by
  unfold k0_pay8 k0_pay6 k0_pay1 k0_pay2 k0_pay3 k0_pay4 k0_pay5 Spec.msg Spec.lin
  simp only [shapeCast_self]
  rw [mulf_apply, addf_apply, addf_apply, addf_apply, colOverBlock, weightCol1, rowTimesMatrix, rowOverBlock,
    rowTimesMatrix, rowOverBlock]
  rfl

/-! ## Where each window's block sits in its array -/

/-- The printed index maps over the 500 grid points: the five windows that move with the grid sit at block row
    `t`, block column 0; the four parameter windows stay at block (0, 0). -/
theorem window_origins : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Edge `p` of block `t` is edge `3000 t + p` of the whole list. -/
def edgeOf (t : Fin cfg0.N) (p : Fin 3000) : Fin 1500000 :=
  ⟨t.val * 3000 + p.val, by have ht : t.val < 500 := t.isLt; have hp := p.isLt; omega⟩

/-- The zero offsets of every load and store of the body, as a constant function. -/
theorem origin_zero : (![0, 0] : Fin 2 → Nat) = fun _ => 0 := funext fun a => by fin_cases a <;> rfl

/-- Two functions on a [3000,64] block agree when they agree at every (row, column). -/
theorem block_ext {f g : S3000x64.Idx → EReal} (h : ∀ (p : Fin 3000) (q : Fin 64), f (ix2 p q) = g (ix2 p q)) : f = g :=
  funext fun j => by rw [eq_ix2 j]; exact h _ _

/-- The user-feature window's block at point `t`, row p: row `edgeOf t p` of the gathered user features. -/
theorem users_block (c : Dev nD) (t : Fin cfg0.N) (p : Fin 3000) (k : Fin 64) :
    iblk0 (F := Ideal) V c 0 t (ix2 p k) = V c main_v6 (ix2 (edgeOf t p) k) := by
  obtain ⟨⟨e0, e1⟩, -⟩ := window_origins t
  show V c main_v6 (((cfg0.win 0).blk t).view.emb (ix2 p k)) = _
  refine congrArg _ (funext fun a => Fin.ext ?_)
  match a with
  | ⟨0, _⟩ => show win0_0.index t (0 : Fin 2) * 3000 + 1 * p.val = t.val * 3000 + p.val; rw [e0]; omega
  | ⟨1, _⟩ => show win0_0.index t (1 : Fin 2) * 64 + 1 * k.val = k.val; rw [e1]; omega

/-- The item-feature window's block at point `t`, row p: row `edgeOf t p` of the gathered item features. -/
theorem items_block (c : Dev nD) (t : Fin cfg0.N) (p : Fin 3000) (k : Fin 64) :
    iblk0 (F := Ideal) V c 1 t (ix2 p k) = V c main_v13 (ix2 (edgeOf t p) k) := by
  obtain ⟨-, ⟨e0, e1⟩, -⟩ := window_origins t
  show V c main_v13 (((cfg0.win 1).blk t).view.emb (ix2 p k)) = _
  refine congrArg _ (funext fun a => Fin.ext ?_)
  match a with
  | ⟨0, _⟩ => show win0_1.index t (0 : Fin 2) * 3000 + 1 * p.val = t.val * 3000 + p.val; rw [e0]; omega
  | ⟨1, _⟩ => show win0_1.index t (1 : Fin 2) * 64 + 1 * k.val = k.val; rw [e1]; omega

/-- The edge-weight window's block at point `t`, row p: the two weights of edge `edgeOf t p`. -/
theorem weights_block (c : Dev nD) (t : Fin cfg0.N) (p : Fin 3000) (d : Fin 2) :
    iblk0 (F := Ideal) V c 2 t (ix2 p d) = V c main_v14 (ix2 (edgeOf t p) d) := by
  obtain ⟨-, -, ⟨e0, e1⟩, -⟩ := window_origins t
  show V c main_v14 (((cfg0.win 2).blk t).view.emb (ix2 p d)) = _
  refine congrArg _ (funext fun a => Fin.ext ?_)
  match a with
  | ⟨0, _⟩ => show win0_2.index t (0 : Fin 2) * 3000 + 1 * p.val = t.val * 3000 + p.val; rw [e0]; omega
  | ⟨1, _⟩ => show win0_2.index t (1 : Fin 2) * 2 + 1 * d.val = d.val; rw [e1]; omega

/-- The first weight matrix's window holds the whole matrix at every point. -/
theorem matrix1_block (c : Dev nD) (t : Fin cfg0.N) : iblk0 (F := Ideal) V c 3 t = V c main_arg4 := by
  obtain ⟨-, -, -, ⟨e0, e1⟩, -⟩ := window_origins t
  funext y
  show V c main_arg4 (((cfg0.win 3).blk t).view.emb y) = V c main_arg4 y
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The first bias row's window holds the whole row at every point. -/
theorem bias1_block (c : Dev nD) (t : Fin cfg0.N) : iblk0 (F := Ideal) V c 4 t = V c main_v15 := by
  obtain ⟨-, -, -, -, ⟨e0, e1⟩, -⟩ := window_origins t
  funext y
  show V c main_v15 (((cfg0.win 4).blk t).view.emb y) = V c main_v15 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The second weight matrix's window holds the whole matrix at every point. -/
theorem matrix2_block (c : Dev nD) (t : Fin cfg0.N) : iblk0 (F := Ideal) V c 5 t = V c main_arg6 := by
  obtain ⟨-, -, -, -, -, ⟨e0, e1⟩, -⟩ := window_origins t
  funext y
  show V c main_arg6 (((cfg0.win 5).blk t).view.emb y) = V c main_arg6 y
  refine congrArg _ (funext fun a => Fin.ext ?_)
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-- The second bias row's window holds the whole row at every point. -/
theorem bias2_block (c : Dev nD) (t : Fin cfg0.N) : iblk0 (F := Ideal) V c 6 t = V c main_v16 := by
  obtain ⟨-, -, -, -, -, -, ⟨e0, e1⟩, -⟩ := window_origins t
  funext y
  show V c main_v16 (((cfg0.win 6).blk t).view.emb y) = V c main_v16 y
  refine congrArg _ (funext fun a => Fin.ext ?_)
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-- Block `t` of a whole [1500000,64] array through the first output window: entry (p, q) is the array's
    entry (`edgeOf t p`, q). -/
theorem out_ui_block (G : S1500000x64.Idx → EReal) (t : Fin cfg0.N) (p : Fin 3000) (q : Fin 64) :
    ((cfg0.win 7).blk t).view.read (Elt Ideal) G (ix2 p q) = G (ix2 (edgeOf t p) q) := by
  obtain ⟨-, -, -, -, -, -, -, ⟨e0, e1⟩, -⟩ := window_origins t
  show G (((cfg0.win 7).blk t).view.emb (ix2 p q)) = _
  refine congrArg _ (funext fun a => Fin.ext ?_)
  match a with
  | ⟨0, _⟩ => show win0_7.index t (0 : Fin 2) * 3000 + 1 * p.val = t.val * 3000 + p.val; rw [e0]; omega
  | ⟨1, _⟩ => show win0_7.index t (1 : Fin 2) * 64 + 1 * q.val = q.val; rw [e1]; omega

/-- The same through the second output window. -/
theorem out_iu_block (G : S1500000x64.Idx → EReal) (t : Fin cfg0.N) (p : Fin 3000) (q : Fin 64) :
    ((cfg0.win 8).blk t).view.read (Elt Ideal) G (ix2 p q) = G (ix2 (edgeOf t p) q) := by
  obtain ⟨-, -, -, -, -, -, -, -, ⟨e0, e1⟩⟩ := window_origins t
  show G (((cfg0.win 8).blk t).view.emb (ix2 p q)) = _
  refine congrArg _ (funext fun a => Fin.ext ?_)
  match a with
  | ⟨0, _⟩ => show win0_8.index t (0 : Fin 2) * 3000 + 1 * p.val = t.val * 3000 + p.val; rw [e0]; omega
  | ⟨1, _⟩ => show win0_8.index t (1 : Fin 2) * 64 + 1 * q.val = q.val; rw [e1]; omega

/-! ## What each point writes back, and the whole arrays -/

/-- WHAT POINT `t` WRITES BACK through the first output window is block `t` of the user-to-item messages of
    the arrays as the region finds them. -/
theorem flushed_ui (c : Dev nD) (t : Fin cfg0.N) :
    (dat0 (F := Ideal) V c).flushed 7 t = ((cfg0.win 7).blk t).view.read (Elt Ideal)
      (Spec.msgArr (fun e => V c main_v14 (ix2 e (0 : Fin 2))) (V c main_v6) (V c main_v6) (V c main_v13) (V c main_arg4)
        (fun k => V c main_v15 (ix2 (0 : Fin 1) k)) (V c main_arg6) (fun k => V c main_v16 (ix2 (0 : Fin 1) k))) := by
  show (cfg0.win 7).cut (grid0.coords t) ((dat0 (F := Ideal) V c).after 7 t) = _
  rw [after0_7]
  unfold out0_7
  rw [View.canon_unit_zero origin_zero]
  simp only [View.ld_unit_zero (S := S3000x64) origin_zero, View.ld_unit_zero (S := S3000x2) origin_zero,
    View.ld_unit_zero (S := S64x64) origin_zero, View.ld_unit_zero (S := S1x64) origin_zero]
  refine block_ext fun p q => ?_
  refine (payload_ui _ _ _ _ _ _ _ p q).trans ?_
  refine Eq.trans ?_ (out_ui_block _ t p q).symm
  simp only [users_block, items_block, weights_block, matrix1_block, bias1_block, matrix2_block, bias2_block]
  rfl

/-- An index of the first output array is in point `t`'s block iff each coordinate is in the block's range. -/
theorem mem_out_ui (t : Fin cfg0.N) (i : S1500000x64.Idx) :
    i ∈ ((cfg0.win 7).blk t).view.set ↔ ∀ a : Fin 2, win0_7.index t a * S3000x64.size a ≤ (i a).val ∧ (i a).val < win0_7.index t a * S3000x64.size a + S3000x64.size a := by
  show i ∈ ((View.whole main_v17_0).slice (win0_7.rect t)).set ↔ _
  rw [View.set_slice_whole, Rect.mem_set_unit]
  exact Iff.rfl

/-- Every edge's row is written: row r lies in the block of point `r / 3000`. -/
theorem covered_ui (i : S1500000x64.Idx) :
    ∃ t : Fin cfg0.N, (cfg0.win 7).flush t = true ∧ i ∈ ((cfg0.win 7).blk t).view.set := by
  have hi0 : (i 0).val < 1500000 := (i 0).isLt
  have hi1 : (i 1).val < 64 := (i 1).isLt
  obtain ⟨t, ht⟩ : ∃ t : Fin cfg0.N, t.val = (i 0).val / 3000 := ⟨⟨(i 0).val / 3000, by show _ < 500; omega⟩, rfl⟩
  obtain ⟨-, -, -, -, -, -, -, ⟨e0, e1⟩, -⟩ := window_origins t
  refine ⟨t, flush0_7 t, ?_⟩
  rw [mem_out_ui]
  intro a
  match a with
  | ⟨0, _⟩ => show win0_7.index t (0 : Fin 2) * 3000 ≤ (i 0).val ∧ (i 0).val < win0_7.index t (0 : Fin 2) * 3000 + 3000; rw [e0]; omega
  | ⟨1, _⟩ => show win0_7.index t (1 : Fin 2) * 64 ≤ (i 1).val ∧ (i 1).val < win0_7.index t (1 : Fin 2) * 64 + 64; rw [e1]; omega

theorem edge_ui (c : Dev nD) : (dat0 (F := Ideal) V c).arrAt 7 cfg0.N =
    Spec.msgArr (fun e => V c main_v14 (ix2 e (0 : Fin 2))) (V c main_v6) (V c main_v6) (V c main_v13) (V c main_arg4)
      (fun k => V c main_v15 (ix2 (0 : Fin 1) k)) (V c main_arg6) (fun k => V c main_v16 (ix2 (0 : Fin 1) k)) :=
  (dat0 (F := Ideal) V c).arrAt_eq_of_cover 7 _ (fun t _ => flushed_ui V c t) covered_ui

/-- WHAT POINT `t` WRITES BACK through the second output window is block `t` of the item-to-user messages. -/
theorem flushed_iu (c : Dev nD) (t : Fin cfg0.N) :
    (dat0 (F := Ideal) V c).flushed 8 t = ((cfg0.win 8).blk t).view.read (Elt Ideal)
      (Spec.msgArr (fun e => V c main_v14 (ix2 e (1 : Fin 2))) (V c main_v13) (V c main_v6) (V c main_v13) (V c main_arg4)
        (fun k => V c main_v15 (ix2 (0 : Fin 1) k)) (V c main_arg6) (fun k => V c main_v16 (ix2 (0 : Fin 1) k))) := by
  show (cfg0.win 8).cut (grid0.coords t) ((dat0 (F := Ideal) V c).after 8 t) = _
  rw [after0_8]
  unfold out0_8
  rw [View.canon_unit_zero origin_zero]
  simp only [View.ld_unit_zero (S := S3000x64) origin_zero, View.ld_unit_zero (S := S3000x2) origin_zero,
    View.ld_unit_zero (S := S64x64) origin_zero, View.ld_unit_zero (S := S1x64) origin_zero]
  refine block_ext fun p q => ?_
  refine (payload_iu _ _ _ _ _ _ _ p q).trans ?_
  refine Eq.trans ?_ (out_iu_block _ t p q).symm
  simp only [users_block, items_block, weights_block, matrix1_block, bias1_block, matrix2_block, bias2_block]
  rfl

/-- An index of the second output array is in point `t`'s block iff each coordinate is in the block's range. -/
theorem mem_out_iu (t : Fin cfg0.N) (i : S1500000x64.Idx) :
    i ∈ ((cfg0.win 8).blk t).view.set ↔ ∀ a : Fin 2, win0_8.index t a * S3000x64.size a ≤ (i a).val ∧ (i a).val < win0_8.index t a * S3000x64.size a + S3000x64.size a := by
  show i ∈ ((View.whole main_v17_1).slice (win0_8.rect t)).set ↔ _
  rw [View.set_slice_whole, Rect.mem_set_unit]
  exact Iff.rfl

/-- Every row of the second output array is written, by the point `r / 3000`. -/
theorem covered_iu (i : S1500000x64.Idx) :
    ∃ t : Fin cfg0.N, (cfg0.win 8).flush t = true ∧ i ∈ ((cfg0.win 8).blk t).view.set := by
  have hi0 : (i 0).val < 1500000 := (i 0).isLt
  have hi1 : (i 1).val < 64 := (i 1).isLt
  obtain ⟨t, ht⟩ : ∃ t : Fin cfg0.N, t.val = (i 0).val / 3000 := ⟨⟨(i 0).val / 3000, by show _ < 500; omega⟩, rfl⟩
  obtain ⟨-, -, -, -, -, -, -, -, ⟨e0, e1⟩⟩ := window_origins t
  refine ⟨t, flush0_8 t, ?_⟩
  rw [mem_out_iu]
  intro a
  match a with
  | ⟨0, _⟩ => show win0_8.index t (0 : Fin 2) * 3000 ≤ (i 0).val ∧ (i 0).val < win0_8.index t (0 : Fin 2) * 3000 + 3000; rw [e0]; omega
  | ⟨1, _⟩ => show win0_8.index t (1 : Fin 2) * 64 ≤ (i 1).val ∧ (i 1).val < win0_8.index t (1 : Fin 2) * 64 + 64; rw [e1]; omega

theorem edge_iu (c : Dev nD) : (dat0 (F := Ideal) V c).arrAt 8 cfg0.N =
    Spec.msgArr (fun e => V c main_v14 (ix2 e (1 : Fin 2))) (V c main_v13) (V c main_v6) (V c main_v13) (V c main_arg4)
      (fun k => V c main_v15 (ix2 (0 : Fin 1) k)) (V c main_arg6) (fun k => V c main_v16 (ix2 (0 : Fin 1) k)) :=
  (dat0 (F := Ideal) V c).arrAt_eq_of_cover 8 _ (fun t _ => flushed_iu V c t) covered_iu

end Cert.KernelIdeal.Regions

end
-- ==== Proof.NodeUser.lean ====
/-
  The users' post-processing region read as a whole array on the extended reals.

  The region walks the 500000 users in 125 blocks of 4000 rows. At each block the body forms
  `h = seg + (feat · W + b)`, applies LeakyReLU entry by entry, and divides every row by its Euclidean norm floored at ε.
  Each output entry depends only on its own row of the two input blocks, so block `t` of the output is block `t` of one
  whole-array function of the region's input arrays, and the blocks tile the array.
-/
import proofs.«121884_j32341103739241_1_alg».proof.Proof.Gen.KernelIdeal.Frame
import proofs.«121884_j32341103739241_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen Idealize.ShloMosaic Idealize.ShloMosaic.TcCoe Idealize.SL.Sem Idealize.ShloMosaic.ValueIdx
open Idealize.ShloMosaic.Pipeline (Dat)

/-! ## Small layout facts: a column broadcast over a row, a vector stood up as a column -/

/-- The stores' rectangles start at the origin. -/
theorem origin2 : (![0, 0] : Fin 2 → Nat) = fun _ => 0 := funext fun a => by fin_cases a <;> rfl

/-- An `[a, 1]` column broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector's entry `p`. -/
theorem shapeCast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The product of a block of rows with the weight matrix, entry by entry -/

theorem lhs_node_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_node_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_node_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_node_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A `[4000, 64]` block times the `[64, 64]` matrix into a zero accumulator, at row `p` and column `q`: the sum over
    the 64 contracted features of the row's entry times the matrix's. -/
theorem matmul_node_apply {φ₁ φ₂ : FTy} (a : FVec Ideal S4000x64 φ₁) (b : FVec Ideal S64x64 φ₂) (p : Fin 4000) (q : Fin 64) :
    matmul dot_S4000x64_S64x64_S4000x64_1_0_0_1_n_n none a b (constant (F := Ideal) S4000x64 .f32 0x00000000#32) (ix2 p q)
      = ∑ k : Fin 64, a (ix2 p k) * b (ix2 k q) := by
  refine (Ideal.matmul_constant_zero_apply dot_S4000x64_S64x64_S4000x64_1_0_0_1_n_n none a b (ix2 p q)).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun ax => Fin.ext (by
    match ax with
    | ⟨0, _⟩ => exact lhs_node_0 _ _
    | ⟨1, _⟩ => exact (lhs_node_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun ax => Fin.ext (by
    match ax with
    | ⟨0, _⟩ => exact (rhs_node_0 _ _).trans hk
    | ⟨1, _⟩ => exact rhs_node_1 _ _)
  rw [el, er]

/-! ## The body's arithmetic -/

section Payload
variable (x0 x1 : FVec Ideal S4000x64 .f32) (x2 : FVec Ideal S64x64 .f32) (x3 : FVec Ideal S1x64 .f32)

/-- The block of activated rows: the aggregated messages plus the features' linear image, through LeakyReLU. -/
def nodeAct : FVec Ideal S4000x64 .f32 :=
  select
    (cmpf .ogt
      (addf (shapeCast S4000x64 x1 shapeCasts_S4000x64_S4000x64)
        (addf (matmul dot_S4000x64_S64x64_S4000x64_1_0_0_1_n_n none (truncf .bf16 x0 bitsLt_bf16_f32) (truncf .bf16 x2 bitsLt_bf16_f32) (constant (F := Ideal) S4000x64 .f32 0x00000000#32))
          (broadcastTo S4000x64 (shapeCast S1x64 x3 shapeCasts_S1x64_S1x64) broadcasts_S1x64_S4000x64)))
      (broadcast S4000x64 (Scalar.ofBits .f32 0x00000000#32)))
    (addf (shapeCast S4000x64 x1 shapeCasts_S4000x64_S4000x64)
      (addf (matmul dot_S4000x64_S64x64_S4000x64_1_0_0_1_n_n none (truncf .bf16 x0 bitsLt_bf16_f32) (truncf .bf16 x2 bitsLt_bf16_f32) (constant (F := Ideal) S4000x64 .f32 0x00000000#32))
        (broadcastTo S4000x64 (shapeCast S1x64 x3 shapeCasts_S1x64_S1x64) broadcasts_S1x64_S4000x64)))
    (mulf (broadcast S4000x64 (Scalar.ofBits .f32 0x3E4CCCCD#32))
      (addf (shapeCast S4000x64 x1 shapeCasts_S4000x64_S4000x64)
        (addf (matmul dot_S4000x64_S64x64_S4000x64_1_0_0_1_n_n none (truncf .bf16 x0 bitsLt_bf16_f32) (truncf .bf16 x2 bitsLt_bf16_f32) (constant (F := Ideal) S4000x64 .f32 0x00000000#32))
          (broadcastTo S4000x64 (shapeCast S1x64 x3 shapeCasts_S1x64_S1x64) broadcasts_S1x64_S4000x64))))

/-- The column of the rows' sums of squares. -/
def nodeSq : FVec Ideal S4000x1 .f32 :=
  shapeCast S4000x1
    (multiReduction .add [1] S4000 (mulf (nodeAct x0 x1 x2 x3) (nodeAct x0 x1 x2 x3)) 0x00000000#32 reduces_S4000x64_S4000 (.inl rfl) rfl)
    shapeCasts_S4000_S4000x1

/-- The stored block is the activated block divided, row by row, by the row's floored Euclidean norm. -/
theorem pay_eq : k1_pay1 (F := Ideal) x0 x1 x2 x3 =
    divf (nodeAct x0 x1 x2 x3)
      (broadcastTo S4000x64
        (maximumf (sqrt (nodeSq x0 x1 x2 x3)) (broadcast S4000x1 (Scalar.ofBits .f32 0x2B8CBCCC#32)))
        broadcasts_S4000x1_S4000x64) := rfl

/-- An activated entry is the specification's, of the block's rows. -/
theorem nodeAct_apply (p : Fin 4000) (k : Fin 64) :
    nodeAct x0 x1 x2 x3 (ix2 p k)
      = Spec.act (fun j => x0 (ix2 p j)) (fun j => x1 (ix2 p j)) x2 (fun j => x3 (ix2 (0 : Fin 1) j)) k := by
  unfold nodeAct Spec.act Spec.leaky Spec.lin
  simp only [select_apply, cmpf_apply, mulf_apply, addf_apply, broadcast_apply, shapeCast_self, matmul_node_apply,
    broadcastTo_1b_ab_apply, truncf_apply]
  rfl

/-- Row `p`'s sum of squares is the sum over the 64 features of the activated entry squared. -/
theorem nodeSq_apply (p : Fin 4000) (u : Fin 1) :
    nodeSq x0 x1 x2 x3 (ix2 p u)
      = ∑ k : Fin 64, Spec.act (fun j => x0 (ix2 p j)) (fun j => x1 (ix2 p j)) x2 (fun j => x3 (ix2 (0 : Fin 1) j)) k
          * Spec.act (fun j => x0 (ix2 p j)) (fun j => x1 (ix2 p j)) x2 (fun j => x3 (ix2 (0 : Fin 1) j)) k := by
  unfold nodeSq
  refine (shapeCast_col_apply _ shapeCasts_S4000_S4000x1 p u).trans ?_
  refine (Ideal.multiReduction_add_single (mulf (nodeAct x0 x1 x2 x3) (nodeAct x0 x1 x2 x3)) 0x00000000#32 reduces_S4000x64_S4000 (.inl rfl) rfl (ix1 p)).trans ?_
  show ∑ k : Fin 64, mulf (nodeAct x0 x1 x2 x3) (nodeAct x0 x1 x2 x3) (reduces_S4000x64_S4000.lift (ix1 p) k) = _
  refine Finset.sum_congr rfl fun k _ => ?_
  have e : reduces_S4000x64_S4000.lift (ix1 p) k = ix2 p k := funext fun ax => by
    match ax with
    | ⟨0, _⟩ => rfl
    | ⟨1, _⟩ => rfl
  rw [e]
  show nodeAct x0 x1 x2 x3 (ix2 p k) * nodeAct x0 x1 x2 x3 (ix2 p k) = _
  rw [nodeAct_apply]

/-- The stored entry at row `p`, feature `q`, is the specification's output of the block's rows `p`. -/
theorem pay_apply (p : Fin 4000) (q : Fin 64) :
    k1_pay1 (F := Ideal) x0 x1 x2 x3 (ix2 p q)
      = Spec.post (fun j => x0 (ix2 p j)) (fun j => x1 (ix2 p j)) x2 (fun j => x3 (ix2 (0 : Fin 1) j)) q := by
  rw [pay_eq]
  show Ideal.div (nodeAct x0 x1 x2 x3 (ix2 p q))
    (broadcastTo S4000x64 (maximumf (sqrt (nodeSq x0 x1 x2 x3)) (broadcast S4000x1 (Scalar.ofBits .f32 0x2B8CBCCC#32)))
      broadcasts_S4000x1_S4000x64 (ix2 p q)) = _
  rw [broadcastTo_col_apply]
  show Ideal.div (nodeAct x0 x1 x2 x3 (ix2 p q))
    (max (Ideal.sqrt (nodeSq x0 x1 x2 x3 (ix2 p (0 : Fin 1)))) (Ideal.ofBits .f32 0x2B8CBCCC#32)) = _
  rw [nodeSq_apply, nodeAct_apply]
  rfl

/-- The same at an index given whole. -/
theorem pay_at (j : S4000x64.Idx) :
    k1_pay1 (F := Ideal) x0 x1 x2 x3 j
      = Spec.post (fun k => x0 (ix2 (j 0) k)) (fun k => x1 (ix2 (j 0) k)) x2 (fun k => x3 (ix2 (0 : Fin 1) k)) (j 1) :=
  (congrArg (k1_pay1 (F := Ideal) x0 x1 x2 x3) (eq_ix2 j)).trans (pay_apply x0 x1 x2 x3 (j 0) (j 1))

end Payload

/-! ## From the blocks to the array -/

section Arrays
variable (V : (c : Dev nD) → (b : Ref sig .tc) → Buf (Elt Ideal) ((c : Thread nD τ).loc b))

/-- The index maps over the 125 grid points: the feature and message blocks move with the output's along the node
    axis, the weight matrix and the bias row stay at the origin, and point `t` writes block `t`. -/
theorem node_user_idx : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) = t.val :=
  (by decide +kernel : ∀ t : Fin grid1.N, _)

/-- What point `t` writes back is block `t` of the users' output array. -/
theorem node_user_flushed (c : Dev nD) (t : Fin cfg1.N) :
    (dat1 (F := Ideal) V c).flushed 4 t = ((cfg1.win 4).blk t).view.read (Elt Ideal)
      (Spec.postArr (V c main_arg0) (V c main_v23) (V c main_arg4) (fun k => V c main_v24 (ix2 (0 : Fin 1) k))) := by
  show (cfg1.win 4).cut (grid1.coords t) ((dat1 (F := Ideal) V c).after 4 t) = _
  rw [after1_4]
  unfold out1_4
  rw [View.canon_unit_zero origin2]
  simp only [View.ld_unit_zero (S := S4000x64) origin2, View.ld_unit_zero (S := S64x64) origin2, View.ld_unit_zero (S := S1x64) origin2]
  obtain ⟨e0, e1, e2, e3, e4, e5, e6, e7, e8, e9⟩ := node_user_idx t
  funext j
  refine (pay_at (iblk1 V c 0 t) (iblk1 V c 1 t) (iblk1 V c 2 t) (iblk1 V c 3 t) j).trans ?_
  show _ = Spec.post (fun k => V c main_arg0 (ix2 ((((cfg1.win 4).blk t).view.emb j) 0) k))
      (fun k => V c main_v23 (ix2 ((((cfg1.win 4).blk t).view.emb j) 0) k)) (V c main_arg4)
      (fun k => V c main_v24 (ix2 (0 : Fin 1) k)) ((((cfg1.win 4).blk t).view.emb j) 1)
  have h0 : (fun k : Fin 64 => iblk1 V c 0 t (ix2 (j 0) k)) = fun k => V c main_arg0 (ix2 ((((cfg1.win 4).blk t).view.emb j) 0) k) :=
    funext fun k => by
      show V c main_arg0 (((cfg1.win 0).blk t).view.emb (ix2 (j 0) k)) = _
      refine congrArg (V c main_arg0) (funext fun ax => Fin.ext ?_)
      match ax with
      | ⟨0, _⟩ => show win1_0.index t (0 : Fin 2) * 4000 + 1 * (j 0).val = win1_4.index t (0 : Fin 2) * 4000 + 1 * (j 0).val; omega
      | ⟨1, _⟩ => show win1_0.index t (1 : Fin 2) * 64 + 1 * k.val = k.val; omega
  have h1 : (fun k : Fin 64 => iblk1 V c 1 t (ix2 (j 0) k)) = fun k => V c main_v23 (ix2 ((((cfg1.win 4).blk t).view.emb j) 0) k) :=
    funext fun k => by
      show V c main_v23 (((cfg1.win 1).blk t).view.emb (ix2 (j 0) k)) = _
      refine congrArg (V c main_v23) (funext fun ax => Fin.ext ?_)
      match ax with
      | ⟨0, _⟩ => show win1_1.index t (0 : Fin 2) * 4000 + 1 * (j 0).val = win1_4.index t (0 : Fin 2) * 4000 + 1 * (j 0).val; omega
      | ⟨1, _⟩ => show win1_1.index t (1 : Fin 2) * 64 + 1 * k.val = k.val; omega
  have h2 : iblk1 V c 2 t = V c main_arg4 :=
    funext fun y => by
      show V c main_arg4 (((cfg1.win 2).blk t).view.emb y) = _
      refine congrArg (V c main_arg4) (funext fun ax => Fin.ext ?_)
      match ax with
      | ⟨0, _⟩ => show win1_2.index t (0 : Fin 2) * 64 + 1 * (y 0).val = (y 0).val; omega
      | ⟨1, _⟩ => show win1_2.index t (1 : Fin 2) * 64 + 1 * (y 1).val = (y 1).val; omega
  have h3 : (fun k : Fin 64 => iblk1 V c 3 t (ix2 (0 : Fin 1) k)) = fun k => V c main_v24 (ix2 (0 : Fin 1) k) :=
    funext fun k => by
      show V c main_v24 (((cfg1.win 3).blk t).view.emb (ix2 (0 : Fin 1) k)) = _
      refine congrArg (V c main_v24) (funext fun ax => Fin.ext ?_)
      match ax with
      | ⟨0, _⟩ => show win1_3.index t (0 : Fin 2) * 1 + 1 * 0 = 0; omega
      | ⟨1, _⟩ => show win1_3.index t (1 : Fin 2) * 64 + 1 * k.val = k.val; omega
  have h4 : (j 1 : Fin 64) = (((cfg1.win 4).blk t).view.emb j) 1 := Fin.ext (by
    show (j 1).val = win1_4.index t (1 : Fin 2) * 64 + 1 * (j 1).val; omega)
  rw [h0, h1, h2, h3, h4]

/-- An index of the users' output array is in point `t`'s block iff each coordinate is in the block's range. -/
theorem node_user_mem (t : Fin cfg1.N) (i : S500000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v25).slice (win1_4.rect t)).set ↔ _
  rw [View.set_slice_whole, Rect.mem_set_unit]
  exact Iff.rfl

/-- Row `r` of the array lies in the block of point `r / 4000`: the 125 blocks of 4000 rows tile the 500000 rows. -/
theorem node_user_cover (i : S500000x64.Idx) :
    ∃ t : Fin cfg1.N, (cfg1.win 4).flush t = true ∧ i ∈ ((cfg1.win 4).blk t).view.set := by
  have hi0 : (i 0).val < 500000 := (i 0).isLt
  have hi1 : (i 1).val < 64 := (i 1).isLt
  have hN : cfg1.N = 125 := N_1
  obtain ⟨-, -, -, -, -, -, -, -, e8, e9⟩ := node_user_idx ⟨(i 0).val / 4000, by omega⟩
  refine ⟨⟨(i 0).val / 4000, by omega⟩, flush1_4 _, ?_⟩
  rw [node_user_mem]
  intro a
  match a with
  | ⟨0, _⟩ =>
    show win1_4.index ⟨(i 0).val / 4000, _⟩ (0 : Fin 2) * 4000 ≤ (i 0).val ∧ (i 0).val < win1_4.index ⟨(i 0).val / 4000, _⟩ (0 : Fin 2) * 4000 + 4000
    rw [e9]
    show (i 0).val / 4000 * 4000 ≤ (i 0).val ∧ (i 0).val < (i 0).val / 4000 * 4000 + 4000
    omega
  | ⟨1, _⟩ =>
    show win1_4.index ⟨(i 0).val / 4000, _⟩ (1 : Fin 2) * 64 ≤ (i 1).val ∧ (i 1).val < win1_4.index ⟨(i 0).val / 4000, _⟩ (1 : Fin 2) * 64 + 64
    rw [e8]
    omega

/-- THE USERS' OUTPUT ARRAY after the region: every user's row is the specification's output of that user's features and
    aggregated messages. -/
theorem node_user (c : Dev nD) : (dat1 (F := Ideal) V c).arrAt 4 cfg1.N =
    Spec.postArr (V c main_arg0) (V c main_v23) (V c main_arg4) (fun k => V c main_v24 (ix2 (0 : Fin 1) k)) :=
  (dat1 (F := Ideal) V c).arrAt_eq_of_cover 4 _ (fun t _ => node_user_flushed V c t) node_user_cover

end Arrays

end Cert.KernelIdeal.Regions

end
-- ==== Proof.NodeItem.lean ====
/-
  The items' post-processing region read as a whole array on the extended reals.

  The region walks the 200000 items in 50 blocks of 4000 rows. At each block the body forms
  `h = seg + (feat · W + b)`, applies LeakyReLU entry by entry, and divides every row by its Euclidean norm floored at ε.
  Each output entry depends only on its own row of the two input blocks, so block `t` of the output is block `t` of one
  whole-array function of the region's input arrays, and the blocks tile the array.
-/
import proofs.«121884_j32341103739241_1_alg».proof.Proof.Gen.KernelIdeal.Frame
import proofs.«121884_j32341103739241_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionsItem

open Cert.KernelIdeal Cert.KernelIdeal.Gen Idealize.ShloMosaic Idealize.ShloMosaic.TcCoe Idealize.SL.Sem Idealize.ShloMosaic.ValueIdx
open Idealize.ShloMosaic.Pipeline (Dat)

/-! ## Small layout facts: a column broadcast over a row, a vector stood up as a column -/

/-- The stores' rectangles start at the origin. -/
theorem origin2 : (![0, 0] : Fin 2 → Nat) = fun _ => 0 := funext fun a => by fin_cases a <;> rfl

/-- An `[a, 1]` column broadcast to `[a, b]` reads, at `(p, c)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector's entry `p`. -/
theorem shapeCast_col_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The product of a block of rows with the weight matrix, entry by entry -/

theorem lhs_node_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_node_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_node_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_node_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- A `[4000, 64]` block times the `[64, 64]` matrix into a zero accumulator, at row `p` and column `q`: the sum over
    the 64 contracted features of the row's entry times the matrix's. -/
theorem matmul_node_apply {φ₁ φ₂ : FTy} (a : FVec Ideal S4000x64 φ₁) (b : FVec Ideal S64x64 φ₂) (p : Fin 4000) (q : Fin 64) :
    matmul dot_S4000x64_S64x64_S4000x64_1_0_0_1_n_n none a b (constant (F := Ideal) S4000x64 .f32 0x00000000#32) (ix2 p q)
      = ∑ k : Fin 64, a (ix2 p k) * b (ix2 k q) := by
  refine (Ideal.matmul_constant_zero_apply dot_S4000x64_S64x64_S4000x64_1_0_0_1_n_n none a b (ix2 p q)).trans ?_
  rw [← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k := funext fun ax => Fin.ext (by
    match ax with
    | ⟨0, _⟩ => exact lhs_node_0 _ _
    | ⟨1, _⟩ => exact (lhs_node_1 _ _).trans hk)
  have er : dot_S4000x64_S64x64_S4000x64_1_0_0_1_n_n.rhsIdx (ix2 p q) ((contrEquiv1 dot_S4000x64_S64x64_S4000x64_1_0_0_1_n_n 64 rfl rfl).symm k) = ix2 k q := funext fun ax => Fin.ext (by
    match ax with
    | ⟨0, _⟩ => exact (rhs_node_0 _ _).trans hk
    | ⟨1, _⟩ => exact rhs_node_1 _ _)
  rw [el, er]

/-! ## The body's arithmetic -/

section Payload
variable (x0 x1 : FVec Ideal S4000x64 .f32) (x2 : FVec Ideal S64x64 .f32) (x3 : FVec Ideal S1x64 .f32)

/-- The block of activated rows: the aggregated messages plus the features' linear image, through LeakyReLU. -/
def nodeAct : FVec Ideal S4000x64 .f32 :=
  select
    (cmpf .ogt
      (addf (shapeCast S4000x64 x1 shapeCasts_S4000x64_S4000x64)
        (addf (matmul dot_S4000x64_S64x64_S4000x64_1_0_0_1_n_n none (truncf .bf16 x0 bitsLt_bf16_f32) (truncf .bf16 x2 bitsLt_bf16_f32) (constant (F := Ideal) S4000x64 .f32 0x00000000#32))
          (broadcastTo S4000x64 (shapeCast S1x64 x3 shapeCasts_S1x64_S1x64) broadcasts_S1x64_S4000x64)))
      (broadcast S4000x64 (Scalar.ofBits .f32 0x00000000#32)))
    (addf (shapeCast S4000x64 x1 shapeCasts_S4000x64_S4000x64)
      (addf (matmul dot_S4000x64_S64x64_S4000x64_1_0_0_1_n_n none (truncf .bf16 x0 bitsLt_bf16_f32) (truncf .bf16 x2 bitsLt_bf16_f32) (constant (F := Ideal) S4000x64 .f32 0x00000000#32))
        (broadcastTo S4000x64 (shapeCast S1x64 x3 shapeCasts_S1x64_S1x64) broadcasts_S1x64_S4000x64)))
    (mulf (broadcast S4000x64 (Scalar.ofBits .f32 0x3E4CCCCD#32))
      (addf (shapeCast S4000x64 x1 shapeCasts_S4000x64_S4000x64)
        (addf (matmul dot_S4000x64_S64x64_S4000x64_1_0_0_1_n_n none (truncf .bf16 x0 bitsLt_bf16_f32) (truncf .bf16 x2 bitsLt_bf16_f32) (constant (F := Ideal) S4000x64 .f32 0x00000000#32))
          (broadcastTo S4000x64 (shapeCast S1x64 x3 shapeCasts_S1x64_S1x64) broadcasts_S1x64_S4000x64))))

/-- The column of the rows' sums of squares. -/
def nodeSq : FVec Ideal S4000x1 .f32 :=
  shapeCast S4000x1
    (multiReduction .add [1] S4000 (mulf (nodeAct x0 x1 x2 x3) (nodeAct x0 x1 x2 x3)) 0x00000000#32 reduces_S4000x64_S4000 (.inl rfl) rfl)
    shapeCasts_S4000_S4000x1

/-- The stored block is the activated block divided, row by row, by the row's floored Euclidean norm. -/
theorem pay_eq : k2_pay1 (F := Ideal) x0 x1 x2 x3 =
    divf (nodeAct x0 x1 x2 x3)
      (broadcastTo S4000x64
        (maximumf (sqrt (nodeSq x0 x1 x2 x3)) (broadcast S4000x1 (Scalar.ofBits .f32 0x2B8CBCCC#32)))
        broadcasts_S4000x1_S4000x64) := rfl

/-- An activated entry is the specification's, of the block's rows. -/
theorem nodeAct_apply (p : Fin 4000) (k : Fin 64) :
    nodeAct x0 x1 x2 x3 (ix2 p k)
      = Spec.act (fun j => x0 (ix2 p j)) (fun j => x1 (ix2 p j)) x2 (fun j => x3 (ix2 (0 : Fin 1) j)) k := by
  unfold nodeAct Spec.act Spec.leaky Spec.lin
  simp only [select_apply, cmpf_apply, mulf_apply, addf_apply, broadcast_apply, shapeCast_self, matmul_node_apply,
    broadcastTo_1b_ab_apply, truncf_apply]
  rfl

/-- Row `p`'s sum of squares is the sum over the 64 features of the activated entry squared. -/
theorem nodeSq_apply (p : Fin 4000) (u : Fin 1) :
    nodeSq x0 x1 x2 x3 (ix2 p u)
      = ∑ k : Fin 64, Spec.act (fun j => x0 (ix2 p j)) (fun j => x1 (ix2 p j)) x2 (fun j => x3 (ix2 (0 : Fin 1) j)) k
          * Spec.act (fun j => x0 (ix2 p j)) (fun j => x1 (ix2 p j)) x2 (fun j => x3 (ix2 (0 : Fin 1) j)) k := by
  unfold nodeSq
  refine (shapeCast_col_apply _ shapeCasts_S4000_S4000x1 p u).trans ?_
  refine (Ideal.multiReduction_add_single (mulf (nodeAct x0 x1 x2 x3) (nodeAct x0 x1 x2 x3)) 0x00000000#32 reduces_S4000x64_S4000 (.inl rfl) rfl (ix1 p)).trans ?_
  show ∑ k : Fin 64, mulf (nodeAct x0 x1 x2 x3) (nodeAct x0 x1 x2 x3) (reduces_S4000x64_S4000.lift (ix1 p) k) = _
  refine Finset.sum_congr rfl fun k _ => ?_
  have e : reduces_S4000x64_S4000.lift (ix1 p) k = ix2 p k := funext fun ax => by
    match ax with
    | ⟨0, _⟩ => rfl
    | ⟨1, _⟩ => rfl
  rw [e]
  show nodeAct x0 x1 x2 x3 (ix2 p k) * nodeAct x0 x1 x2 x3 (ix2 p k) = _
  rw [nodeAct_apply]

/-- The stored entry at row `p`, feature `q`, is the specification's output of the block's rows `p`. -/
theorem pay_apply (p : Fin 4000) (q : Fin 64) :
    k2_pay1 (F := Ideal) x0 x1 x2 x3 (ix2 p q)
      = Spec.post (fun j => x0 (ix2 p j)) (fun j => x1 (ix2 p j)) x2 (fun j => x3 (ix2 (0 : Fin 1) j)) q := by
  rw [pay_eq]
  show Ideal.div (nodeAct x0 x1 x2 x3 (ix2 p q))
    (broadcastTo S4000x64 (maximumf (sqrt (nodeSq x0 x1 x2 x3)) (broadcast S4000x1 (Scalar.ofBits .f32 0x2B8CBCCC#32)))
      broadcasts_S4000x1_S4000x64 (ix2 p q)) = _
  rw [broadcastTo_col_apply]
  show Ideal.div (nodeAct x0 x1 x2 x3 (ix2 p q))
    (max (Ideal.sqrt (nodeSq x0 x1 x2 x3 (ix2 p (0 : Fin 1)))) (Ideal.ofBits .f32 0x2B8CBCCC#32)) = _
  rw [nodeSq_apply, nodeAct_apply]
  rfl

/-- The same at an index given whole. -/
theorem pay_at (j : S4000x64.Idx) :
    k2_pay1 (F := Ideal) x0 x1 x2 x3 j
      = Spec.post (fun k => x0 (ix2 (j 0) k)) (fun k => x1 (ix2 (j 0) k)) x2 (fun k => x3 (ix2 (0 : Fin 1) k)) (j 1) :=
  (congrArg (k2_pay1 (F := Ideal) x0 x1 x2 x3) (eq_ix2 j)).trans (pay_apply x0 x1 x2 x3 (j 0) (j 1))

end Payload

/-! ## From the blocks to the array -/

section Arrays
variable (V : (c : Dev nD) → (b : Ref sig .tc) → Buf (Elt Ideal) ((c : Thread nD τ).loc b))

/-- The index maps over the 50 grid points: the feature and message blocks move with the output's along the node
    axis, the weight matrix and the bias row stay at the origin, and point `t` writes block `t`. -/
theorem node_item_idx : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_4.index t (0 : Fin 2) = t.val :=
  (by decide +kernel : ∀ t : Fin grid2.N, _)

/-- What point `t` writes back is block `t` of the items' output array. -/
theorem node_item_flushed (c : Dev nD) (t : Fin cfg2.N) :
    (dat2 (F := Ideal) V c).flushed 4 t = ((cfg2.win 4).blk t).view.read (Elt Ideal)
      (Spec.postArr (V c main_arg1) (V c main_v20) (V c main_arg4) (fun k => V c main_v26 (ix2 (0 : Fin 1) k))) := by
  show (cfg2.win 4).cut (grid2.coords t) ((dat2 (F := Ideal) V c).after 4 t) = _
  rw [after2_4]
  unfold out2_4
  rw [View.canon_unit_zero origin2]
  simp only [View.ld_unit_zero (S := S4000x64) origin2, View.ld_unit_zero (S := S64x64) origin2, View.ld_unit_zero (S := S1x64) origin2]
  obtain ⟨e0, e1, e2, e3, e4, e5, e6, e7, e8, e9⟩ := node_item_idx t
  funext j
  refine (pay_at (iblk2 V c 0 t) (iblk2 V c 1 t) (iblk2 V c 2 t) (iblk2 V c 3 t) j).trans ?_
  show _ = Spec.post (fun k => V c main_arg1 (ix2 ((((cfg2.win 4).blk t).view.emb j) 0) k))
      (fun k => V c main_v20 (ix2 ((((cfg2.win 4).blk t).view.emb j) 0) k)) (V c main_arg4)
      (fun k => V c main_v26 (ix2 (0 : Fin 1) k)) ((((cfg2.win 4).blk t).view.emb j) 1)
  have h0 : (fun k : Fin 64 => iblk2 V c 0 t (ix2 (j 0) k)) = fun k => V c main_arg1 (ix2 ((((cfg2.win 4).blk t).view.emb j) 0) k) :=
    funext fun k => by
      show V c main_arg1 (((cfg2.win 0).blk t).view.emb (ix2 (j 0) k)) = _
      refine congrArg (V c main_arg1) (funext fun ax => Fin.ext ?_)
      match ax with
      | ⟨0, _⟩ => show win2_0.index t (0 : Fin 2) * 4000 + 1 * (j 0).val = win2_4.index t (0 : Fin 2) * 4000 + 1 * (j 0).val; omega
      | ⟨1, _⟩ => show win2_0.index t (1 : Fin 2) * 64 + 1 * k.val = k.val; omega
  have h1 : (fun k : Fin 64 => iblk2 V c 1 t (ix2 (j 0) k)) = fun k => V c main_v20 (ix2 ((((cfg2.win 4).blk t).view.emb j) 0) k) :=
    funext fun k => by
      show V c main_v20 (((cfg2.win 1).blk t).view.emb (ix2 (j 0) k)) = _
      refine congrArg (V c main_v20) (funext fun ax => Fin.ext ?_)
      match ax with
      | ⟨0, _⟩ => show win2_1.index t (0 : Fin 2) * 4000 + 1 * (j 0).val = win2_4.index t (0 : Fin 2) * 4000 + 1 * (j 0).val; omega
      | ⟨1, _⟩ => show win2_1.index t (1 : Fin 2) * 64 + 1 * k.val = k.val; omega
  have h2 : iblk2 V c 2 t = V c main_arg4 :=
    funext fun y => by
      show V c main_arg4 (((cfg2.win 2).blk t).view.emb y) = _
      refine congrArg (V c main_arg4) (funext fun ax => Fin.ext ?_)
      match ax with
      | ⟨0, _⟩ => show win2_2.index t (0 : Fin 2) * 64 + 1 * (y 0).val = (y 0).val; omega
      | ⟨1, _⟩ => show win2_2.index t (1 : Fin 2) * 64 + 1 * (y 1).val = (y 1).val; omega
  have h3 : (fun k : Fin 64 => iblk2 V c 3 t (ix2 (0 : Fin 1) k)) = fun k => V c main_v26 (ix2 (0 : Fin 1) k) :=
    funext fun k => by
      show V c main_v26 (((cfg2.win 3).blk t).view.emb (ix2 (0 : Fin 1) k)) = _
      refine congrArg (V c main_v26) (funext fun ax => Fin.ext ?_)
      match ax with
      | ⟨0, _⟩ => show win2_3.index t (0 : Fin 2) * 1 + 1 * 0 = 0; omega
      | ⟨1, _⟩ => show win2_3.index t (1 : Fin 2) * 64 + 1 * k.val = k.val; omega
  have h4 : (j 1 : Fin 64) = (((cfg2.win 4).blk t).view.emb j) 1 := Fin.ext (by
    show (j 1).val = win2_4.index t (1 : Fin 2) * 64 + 1 * (j 1).val; omega)
  rw [h0, h1, h2, h3, h4]

/-- An index of the items' output array is in point `t`'s block iff each coordinate is in the block's range. -/
theorem node_item_mem (t : Fin cfg2.N) (i : S200000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v27).slice (win2_4.rect t)).set ↔ _
  rw [View.set_slice_whole, Rect.mem_set_unit]
  exact Iff.rfl

/-- Row `r` of the array lies in the block of point `r / 4000`: the 50 blocks of 4000 rows tile the 200000 rows. -/
theorem node_item_cover (i : S200000x64.Idx) :
    ∃ t : Fin cfg2.N, (cfg2.win 4).flush t = true ∧ i ∈ ((cfg2.win 4).blk t).view.set := by
  have hi0 : (i 0).val < 200000 := (i 0).isLt
  have hi1 : (i 1).val < 64 := (i 1).isLt
  have hN : cfg2.N = 50 := N_2
  obtain ⟨-, -, -, -, -, -, -, -, e8, e9⟩ := node_item_idx ⟨(i 0).val / 4000, by omega⟩
  refine ⟨⟨(i 0).val / 4000, by omega⟩, flush2_4 _, ?_⟩
  rw [node_item_mem]
  intro a
  match a with
  | ⟨0, _⟩ =>
    show win2_4.index ⟨(i 0).val / 4000, _⟩ (0 : Fin 2) * 4000 ≤ (i 0).val ∧ (i 0).val < win2_4.index ⟨(i 0).val / 4000, _⟩ (0 : Fin 2) * 4000 + 4000
    rw [e9]
    show (i 0).val / 4000 * 4000 ≤ (i 0).val ∧ (i 0).val < (i 0).val / 4000 * 4000 + 4000
    omega
  | ⟨1, _⟩ =>
    show win2_4.index ⟨(i 0).val / 4000, _⟩ (1 : Fin 2) * 64 ≤ (i 1).val ∧ (i 1).val < win2_4.index ⟨(i 0).val / 4000, _⟩ (1 : Fin 2) * 64 + 64
    rw [e8]
    omega

/-- THE USERS' OUTPUT ARRAY after the region: every item's row is the specification's output of that item's features and
    aggregated messages. -/
theorem node_item (c : Dev nD) : (dat2 (F := Ideal) V c).arrAt 4 cfg2.N =
    Spec.postArr (V c main_arg1) (V c main_v20) (V c main_arg4) (fun k => V c main_v26 (ix2 (0 : Fin 1) k)) :=
  (dat2 (F := Ideal) V c).arrAt_eq_of_cover 4 _ (fun t _ => node_item_flushed V c t) node_item_cover

end Arrays

end Cert.KernelIdeal.RegionsItem

end
-- ==== Proof.Fold.lean ====
/-
  The idealized kernel's result buffer, read back through @main.

  @main is four stretches of host operations around three kernel regions. The buffers' contents at each boundary are a
  fold from the launch memory: a host stretch applies its operations' functions, a region leaves in each output array what
  its write-backs leave and keeps every other buffer. Reading the fold at the result buffer backwards — the last stretch
  sets the users' rows above the items'; each post-processing region's output array is the specification's `postArr` of
  the node features and the scatter-added messages; the scatter-added messages are the host's scatter of the edge
  region's output arrays, which are the specification's `msgArr` of the gathered rows — gives one closed term of the ten
  argument arrays.
-/
import proofs.«121884_j32341103739241_1_alg».proof.Proof.Gen.KernelIdeal.Frame
import proofs.«121884_j32341103739241_1_alg».proof.Proof.Spec
import proofs.«121884_j32341103739241_1_alg».proof.Proof.EdgeRegion
import proofs.«121884_j32341103739241_1_alg».proof.Proof.NodeUser
import proofs.«121884_j32341103739241_1_alg».proof.Proof.NodeItem
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.SL.Sem Idealize.ShloMosaic.ValueIdx
open Idealize.ShloMosaic.StableHlo

/-! ## The result as one term of the ten argument arrays -/

section Terms
variable (a0 : FVec Ideal S500000x64 .f32) (a1 : FVec Ideal S200000x64 .f32) (a2 a3 : FVec Ideal S1500000x1 .f32)
  (a4 : FVec Ideal S64x64 .f32) (a5 : FVec Ideal S64 .f32) (a6 : FVec Ideal S64x64 .f32) (a7 : FVec Ideal S64 .f32)
  (a8 a9 : IVec S1500000 32)

/-- The users' feature rows gathered along the edges (a negative user index counted from the end). -/
def rowsU : FVec Ideal S1500000x64 .f32 :=
  Host.gather gather_S500000x64_S1500000x1_S1500000x64_1_0_n_n_0_1_164 a0
    (broadcastInDim S1500000x1 ![0] bcast_S1500000_S1500000x1_0
      (select (cmpi .slt a8 (broadcastInDim S1500000 ![] bcast_S_S1500000 (constantI S_ 32 0#32)))
        (addi a8 (broadcastInDim S1500000 ![] bcast_S_S1500000 (constantI S_ 32 500000#32))) a8))

/-- The items' feature rows gathered along the edges (a negative item index counted from the end). -/
def rowsI : FVec Ideal S1500000x64 .f32 :=
  Host.gather gather_S200000x64_S1500000x1_S1500000x64_1_0_n_n_0_1_164 a1
    (broadcastInDim S1500000x1 ![0] bcast_S1500000_S1500000x1_0
      (select (cmpi .slt a9 (broadcastInDim S1500000 ![] bcast_S_S1500000 (constantI S_ 32 0#32)))
        (addi a9 (broadcastInDim S1500000 ![] bcast_S_S1500000 (constantI S_ 32 200000#32))) a9))

/-- The user→item messages of all edges. -/
def msgUI : FVec Ideal S1500000x64 .f32 :=
  Spec.msgArr (fun e => a2 (ix2 e (0 : Fin 1))) (rowsU a0 a8) (rowsU a0 a8) (rowsI a1 a9) a4 (fun k => a5 (ix1 k)) a6 (fun k => a7 (ix1 k))

/-- The item→user messages of all edges. -/
def msgIU : FVec Ideal S1500000x64 .f32 :=
  Spec.msgArr (fun e => a3 (ix2 e (0 : Fin 1))) (rowsI a1 a9) (rowsU a0 a8) (rowsI a1 a9) a4 (fun k => a5 (ix1 k)) a6 (fun k => a7 (ix1 k))

/-- The user→item messages summed into their destination items. -/
def segI : FVec Ideal S200000x64 .f32 :=
  Host.scatterAdd scatter_S200000x64_S1500000x1_S1500000x64_1_0_0_1
    (broadcastInDim S200000x64 ![] bcast_S_S200000x64 (constant (F := Ideal) S_ .f32 0x00000000#32))
    (broadcastInDim S1500000x1 ![0] bcast_S1500000_S1500000x1_0 a9) (msgUI a0 a1 a2 a4 a5 a6 a7 a8 a9)

/-- The item→user messages summed into their source users. -/
def segU : FVec Ideal S500000x64 .f32 :=
  Host.scatterAdd scatter_S500000x64_S1500000x1_S1500000x64_1_0_0_1
    (broadcastInDim S500000x64 ![] bcast_S_S500000x64 (constant (F := Ideal) S_ .f32 0x00000000#32))
    (broadcastInDim S1500000x1 ![0] bcast_S1500000_S1500000x1_0 a8) (msgIU a0 a1 a3 a4 a5 a6 a7 a8 a9)

/-- The program's result: the users' output rows above the items'. -/
def result : FVec Ideal S700000x64 .f32 :=
  concatenate S700000x64 0
    [⟨S500000x64, Spec.postArr a0 (segU a0 a1 a3 a4 a5 a6 a7 a8 a9) a4 (fun k => a5 (ix1 k))⟩,
     ⟨S200000x64, Spec.postArr a1 (segI a0 a1 a2 a4 a5 a6 a7 a8 a9) a4 (fun k => a5 (ix1 k))⟩]
    concatenates_S500000x64_S200000x64_S700000x64_d0

/-- Column 0 of two `[E, 1]` columns set side by side is the first. -/
theorem concat_col0 (e : Fin 1500000) :
    concatenate S1500000x2 1 [⟨S1500000x1, a2⟩, ⟨S1500000x1, a3⟩] concatenates_S1500000x1_S1500000x1_S1500000x2_d1 (ix2 e (0 : Fin 2))
      = a2 (ix2 e (0 : Fin 1)) := by
  refine concatenate_apply_piece (t := S1500000x2) 1 [⟨S1500000x1, a2⟩, ⟨S1500000x1, a3⟩] concatenates_S1500000x1_S1500000x1_S1500000x2_d1
    (ix2 e (0 : Fin 2)) 0 (by show 0 < 2; decide) S1500000x1 a2 rfl rfl 0 rfl
    (ix2 e (0 : Fin 1)) (fun b hb => ?_) rfl
  match b with
  | ⟨0, _⟩ => rfl
  | ⟨1, _⟩ => exact absurd rfl hb

/-- Column 1 is the second. -/
theorem concat_col1 (e : Fin 1500000) :
    concatenate S1500000x2 1 [⟨S1500000x1, a2⟩, ⟨S1500000x1, a3⟩] concatenates_S1500000x1_S1500000x1_S1500000x2_d1 (ix2 e (1 : Fin 2))
      = a3 (ix2 e (0 : Fin 1)) := by
  refine concatenate_apply_piece (t := S1500000x2) 1 [⟨S1500000x1, a2⟩, ⟨S1500000x1, a3⟩] concatenates_S1500000x1_S1500000x1_S1500000x2_d1
    (ix2 e (1 : Fin 2)) 1 (by show 1 < 2; decide) S1500000x1 a3 rfl rfl 1 rfl
    (ix2 e (0 : Fin 1)) (fun b hb => ?_) rfl
  match b with
  | ⟨0, _⟩ => rfl
  | ⟨1, _⟩ => exact absurd rfl hb

end Terms

/-! ## The buffers at each boundary of @main, read back to the launch memory -/

variable (m : (ℓ : Loc nD τ sig) → Buf (Elt Ideal) ℓ) (ρ : Dev nD → PrngReg)

/-- Buffer `b` of core `c` as launched. -/
abbrev launched (c : Dev nD) (b : Ref sig .tc) : Buf (Elt Ideal) ((c : Thread nD τ).loc b) := m ((c : Thread nD τ).loc b)

/-! ### After the first host stretch (the first region's entry) -/

theorem V1_v6 (c : Dev nD) : V1 m ρ c main_v6 = rowsU ((launched m c main_arg0)) ((launched m c main_arg8)) := by
  show StableHlo.after hostOps0 (W0 m ρ c) (Proc.devRef .tc main_v6) = _
  after_results <;> rfl
theorem V1_v13 (c : Dev nD) : V1 m ρ c main_v13 = rowsI ((launched m c main_arg1)) ((launched m c main_arg9)) := by
  show StableHlo.after hostOps0 (W0 m ρ c) (Proc.devRef .tc main_v13) = _
  after_results <;> rfl
theorem V1_v14 (c : Dev nD) : V1 m ρ c main_v14 =
    concatenate S1500000x2 1 [⟨S1500000x1, (launched m c main_arg2)⟩, ⟨S1500000x1, (launched m c main_arg3)⟩] concatenates_S1500000x1_S1500000x1_S1500000x2_d1 := by
  show StableHlo.after hostOps0 (W0 m ρ c) (Proc.devRef .tc main_v14) = _
  after_results <;> rfl
theorem V1_v15 (c : Dev nD) : V1 m ρ c main_v15 = shapeCast S1x64 ((launched m c main_arg5)) shapeCasts_S64_S1x64 := by
  show StableHlo.after hostOps0 (W0 m ρ c) (Proc.devRef .tc main_v15) = _
  after_results <;> rfl
theorem V1_v16 (c : Dev nD) : V1 m ρ c main_v16 = shapeCast S1x64 ((launched m c main_arg7)) shapeCasts_S64_S1x64 := by
  show StableHlo.after hostOps0 (W0 m ρ c) (Proc.devRef .tc main_v16) = _
  after_results <;> rfl
/-- The first host stretch writes no argument. -/
theorem W1_arg0 (c : Dev nD) : W1 m ρ c (Proc.devRef .tc main_arg0) = (launched m c main_arg0) := by
  show StableHlo.after hostOps0 (W0 m ρ c) (Proc.devRef .tc main_arg0) = _
  after_results <;> rfl
theorem W1_arg1 (c : Dev nD) : W1 m ρ c (Proc.devRef .tc main_arg1) = (launched m c main_arg1) := by
  show StableHlo.after hostOps0 (W0 m ρ c) (Proc.devRef .tc main_arg1) = _
  after_results <;> rfl
theorem W1_arg4 (c : Dev nD) : W1 m ρ c (Proc.devRef .tc main_arg4) = (launched m c main_arg4) := by
  show StableHlo.after hostOps0 (W0 m ρ c) (Proc.devRef .tc main_arg4) = _
  after_results <;> rfl
theorem W1_arg5 (c : Dev nD) : W1 m ρ c (Proc.devRef .tc main_arg5) = (launched m c main_arg5) := by
  show StableHlo.after hostOps0 (W0 m ρ c) (Proc.devRef .tc main_arg5) = _
  after_results <;> rfl
theorem W1_arg6 (c : Dev nD) : W1 m ρ c (Proc.devRef .tc main_arg6) = (launched m c main_arg6) := by
  show StableHlo.after hostOps0 (W0 m ρ c) (Proc.devRef .tc main_arg6) = _
  after_results <;> rfl
theorem W1_arg8 (c : Dev nD) : W1 m ρ c (Proc.devRef .tc main_arg8) = (launched m c main_arg8) := by
  show StableHlo.after hostOps0 (W0 m ρ c) (Proc.devRef .tc main_arg8) = _
  after_results <;> rfl
theorem W1_arg9 (c : Dev nD) : W1 m ρ c (Proc.devRef .tc main_arg9) = (launched m c main_arg9) := by
  show StableHlo.after hostOps0 (W0 m ρ c) (Proc.devRef .tc main_arg9) = _
  after_results <;> rfl

/-! ### After the first region -/

/-- The first region leaves the user→item messages in its first output array. -/
theorem W2_v17_0 (c : Dev nD) : W2 m ρ c (Proc.devRef .tc main_v17_0) =
    msgUI ((launched m c main_arg0)) ((launched m c main_arg1)) ((launched m c main_arg2)) ((launched m c main_arg4)) ((launched m c main_arg5)) ((launched m c main_arg6)) ((launched m c main_arg7)) ((launched m c main_arg8)) ((launched m c main_arg9)) := by
  refine (W2_arr m ρ c 7).trans ((Regions.edge_ui (V1 m ρ) c).trans ?_)
  have h14 : (fun e : Fin 1500000 => V1 m ρ c main_v14 (ix2 e (0 : Fin 2))) = fun e => (launched m c main_arg2) (ix2 e (0 : Fin 1)) :=
    funext fun e => by rw [V1_v14]; exact concat_col0 _ _ e
  have h15 : (fun k : Fin 64 => V1 m ρ c main_v15 (ix2 (0 : Fin 1) k)) = fun k => (launched m c main_arg5) (ix1 k) :=
    funext fun k => by rw [V1_v15]; exact shapeCast_a_1a_apply _ _ 0 k
  have h16 : (fun k : Fin 64 => V1 m ρ c main_v16 (ix2 (0 : Fin 1) k)) = fun k => (launched m c main_arg7) (ix1 k) :=
    funext fun k => by rw [V1_v16]; exact shapeCast_a_1a_apply _ _ 0 k
  rw [h14, h15, h16, V1_v6, V1_v13, show V1 m ρ c main_arg4 = _ from W1_arg4 m ρ c, show V1 m ρ c main_arg6 = _ from W1_arg6 m ρ c]
  rfl

/-- … and the item→user messages in its second. -/
theorem W2_v17_1 (c : Dev nD) : W2 m ρ c (Proc.devRef .tc main_v17_1) =
    msgIU ((launched m c main_arg0)) ((launched m c main_arg1)) ((launched m c main_arg3)) ((launched m c main_arg4)) ((launched m c main_arg5)) ((launched m c main_arg6)) ((launched m c main_arg7)) ((launched m c main_arg8)) ((launched m c main_arg9)) := by
  refine (W2_arr m ρ c 8).trans ((Regions.edge_iu (V1 m ρ) c).trans ?_)
  have h14 : (fun e : Fin 1500000 => V1 m ρ c main_v14 (ix2 e (1 : Fin 2))) = fun e => (launched m c main_arg3) (ix2 e (0 : Fin 1)) :=
    funext fun e => by rw [V1_v14]; exact concat_col1 _ _ e
  have h15 : (fun k : Fin 64 => V1 m ρ c main_v15 (ix2 (0 : Fin 1) k)) = fun k => (launched m c main_arg5) (ix1 k) :=
    funext fun k => by rw [V1_v15]; exact shapeCast_a_1a_apply _ _ 0 k
  have h16 : (fun k : Fin 64 => V1 m ρ c main_v16 (ix2 (0 : Fin 1) k)) = fun k => (launched m c main_arg7) (ix1 k) :=
    funext fun k => by rw [V1_v16]; exact shapeCast_a_1a_apply _ _ 0 k
  rw [h14, h15, h16, V1_v6, V1_v13, show V1 m ρ c main_arg4 = _ from W1_arg4 m ρ c, show V1 m ρ c main_arg6 = _ from W1_arg6 m ρ c]
  rfl

/-- The first region writes no argument: those it does not stage are untouched, the weight matrix it stages is read only. -/
theorem W2_arg0 (c : Dev nD) : W2 m ρ c (Proc.devRef .tc main_arg0) = (launched m c main_arg0) :=
  (W2_of_ne m ρ c main_arg0 (by decide)).trans (W1_arg0 m ρ c)
theorem W2_arg1 (c : Dev nD) : W2 m ρ c (Proc.devRef .tc main_arg1) = (launched m c main_arg1) :=
  (W2_of_ne m ρ c main_arg1 (by decide)).trans (W1_arg1 m ρ c)
theorem W2_arg5 (c : Dev nD) : W2 m ρ c (Proc.devRef .tc main_arg5) = (launched m c main_arg5) :=
  (W2_of_ne m ρ c main_arg5 (by decide)).trans (W1_arg5 m ρ c)
theorem W2_arg8 (c : Dev nD) : W2 m ρ c (Proc.devRef .tc main_arg8) = (launched m c main_arg8) :=
  (W2_of_ne m ρ c main_arg8 (by decide)).trans (W1_arg8 m ρ c)
theorem W2_arg9 (c : Dev nD) : W2 m ρ c (Proc.devRef .tc main_arg9) = (launched m c main_arg9) :=
  (W2_of_ne m ρ c main_arg9 (by decide)).trans (W1_arg9 m ρ c)
theorem W2_arg4 (c : Dev nD) : W2 m ρ c (Proc.devRef .tc main_arg4) = (launched m c main_arg4) :=
  (W2_arr m ρ c 3).trans (((dat0 (V1 m ρ) c).arrAt_in 3 rfl _).trans ((A_eq0 (V1 m ρ) c 3).trans (W1_arg4 m ρ c)))

/-! ### After the second host stretch (the second region's entry) -/

theorem V3_v23 (c : Dev nD) : V3 m ρ c main_v23 =
    segU ((launched m c main_arg0)) ((launched m c main_arg1)) ((launched m c main_arg3)) ((launched m c main_arg4)) ((launched m c main_arg5)) ((launched m c main_arg6)) ((launched m c main_arg7)) ((launched m c main_arg8)) ((launched m c main_arg9)) := by
  show StableHlo.after hostOps1 (W2 m ρ c) (Proc.devRef .tc main_v23) = _
  after_results
  rw [W2_arg8, W2_v17_1]
  rfl
theorem W3_v20 (c : Dev nD) : W3 m ρ c (Proc.devRef .tc main_v20) =
    segI ((launched m c main_arg0)) ((launched m c main_arg1)) ((launched m c main_arg2)) ((launched m c main_arg4)) ((launched m c main_arg5)) ((launched m c main_arg6)) ((launched m c main_arg7)) ((launched m c main_arg8)) ((launched m c main_arg9)) := by
  show StableHlo.after hostOps1 (W2 m ρ c) (Proc.devRef .tc main_v20) = _
  after_results
  rw [W2_arg9, W2_v17_0]
  rfl
theorem V3_v24 (c : Dev nD) : V3 m ρ c main_v24 = shapeCast S1x64 ((launched m c main_arg5)) shapeCasts_S64_S1x64 := by
  show StableHlo.after hostOps1 (W2 m ρ c) (Proc.devRef .tc main_v24) = _
  after_results
  rw [W2_arg5]
  rfl
theorem W3_arg0 (c : Dev nD) : W3 m ρ c (Proc.devRef .tc main_arg0) = (launched m c main_arg0) := by
  show StableHlo.after hostOps1 (W2 m ρ c) (Proc.devRef .tc main_arg0) = _
  after_results
  exact W2_arg0 m ρ c
theorem W3_arg1 (c : Dev nD) : W3 m ρ c (Proc.devRef .tc main_arg1) = (launched m c main_arg1) := by
  show StableHlo.after hostOps1 (W2 m ρ c) (Proc.devRef .tc main_arg1) = _
  after_results
  exact W2_arg1 m ρ c
theorem W3_arg4 (c : Dev nD) : W3 m ρ c (Proc.devRef .tc main_arg4) = (launched m c main_arg4) := by
  show StableHlo.after hostOps1 (W2 m ρ c) (Proc.devRef .tc main_arg4) = _
  after_results
  exact W2_arg4 m ρ c
theorem W3_arg5 (c : Dev nD) : W3 m ρ c (Proc.devRef .tc main_arg5) = (launched m c main_arg5) := by
  show StableHlo.after hostOps1 (W2 m ρ c) (Proc.devRef .tc main_arg5) = _
  after_results
  exact W2_arg5 m ρ c

/-! ### After the second region -/

/-- The second region leaves the users' output rows in its output array. -/
theorem W4_v25 (c : Dev nD) : W4 m ρ c (Proc.devRef .tc main_v25) =
    Spec.postArr ((launched m c main_arg0))
      (segU ((launched m c main_arg0)) ((launched m c main_arg1)) ((launched m c main_arg3)) ((launched m c main_arg4)) ((launched m c main_arg5)) ((launched m c main_arg6)) ((launched m c main_arg7)) ((launched m c main_arg8)) ((launched m c main_arg9)))
      ((launched m c main_arg4)) (fun k => (launched m c main_arg5) (ix1 k)) := by
  refine (W4_arr m ρ c 4).trans ((Regions.node_user (V3 m ρ) c).trans ?_)
  have h24 : (fun k : Fin 64 => V3 m ρ c main_v24 (ix2 (0 : Fin 1) k)) = fun k => (launched m c main_arg5) (ix1 k) :=
    funext fun k => by rw [V3_v24]; exact shapeCast_a_1a_apply _ _ 0 k
  rw [h24, V3_v23, show V3 m ρ c main_arg0 = _ from W3_arg0 m ρ c, show V3 m ρ c main_arg4 = _ from W3_arg4 m ρ c]

theorem W4_v20 (c : Dev nD) : W4 m ρ c (Proc.devRef .tc main_v20) =
    segI ((launched m c main_arg0)) ((launched m c main_arg1)) ((launched m c main_arg2)) ((launched m c main_arg4)) ((launched m c main_arg5)) ((launched m c main_arg6)) ((launched m c main_arg7)) ((launched m c main_arg8)) ((launched m c main_arg9)) :=
  (W4_of_ne m ρ c main_v20 (by decide)).trans (W3_v20 m ρ c)
theorem W4_arg1 (c : Dev nD) : W4 m ρ c (Proc.devRef .tc main_arg1) = (launched m c main_arg1) :=
  (W4_of_ne m ρ c main_arg1 (by decide)).trans (W3_arg1 m ρ c)
theorem W4_arg5 (c : Dev nD) : W4 m ρ c (Proc.devRef .tc main_arg5) = (launched m c main_arg5) :=
  (W4_of_ne m ρ c main_arg5 (by decide)).trans (W3_arg5 m ρ c)
theorem W4_arg4 (c : Dev nD) : W4 m ρ c (Proc.devRef .tc main_arg4) = (launched m c main_arg4) :=
  (W4_arr m ρ c 2).trans (((dat1 (V3 m ρ) c).arrAt_in 2 rfl _).trans ((A_eq1 (V3 m ρ) c 2).trans (W3_arg4 m ρ c)))

/-! ### After the third host stretch (the third region's entry) -/

theorem V5_v26 (c : Dev nD) : V5 m ρ c main_v26 = shapeCast S1x64 ((launched m c main_arg5)) shapeCasts_S64_S1x64 := by
  show StableHlo.after hostOps2 (W4 m ρ c) (Proc.devRef .tc main_v26) = _
  after_results
  rw [W4_arg5]
  rfl
theorem V5_v20 (c : Dev nD) : V5 m ρ c main_v20 =
    segI ((launched m c main_arg0)) ((launched m c main_arg1)) ((launched m c main_arg2)) ((launched m c main_arg4)) ((launched m c main_arg5)) ((launched m c main_arg6)) ((launched m c main_arg7)) ((launched m c main_arg8)) ((launched m c main_arg9)) := by
  show StableHlo.after hostOps2 (W4 m ρ c) (Proc.devRef .tc main_v20) = _
  after_results
  exact W4_v20 m ρ c
theorem V5_arg1 (c : Dev nD) : V5 m ρ c main_arg1 = (launched m c main_arg1) := by
  show StableHlo.after hostOps2 (W4 m ρ c) (Proc.devRef .tc main_arg1) = _
  after_results
  exact W4_arg1 m ρ c
theorem V5_arg4 (c : Dev nD) : V5 m ρ c main_arg4 = (launched m c main_arg4) := by
  show StableHlo.after hostOps2 (W4 m ρ c) (Proc.devRef .tc main_arg4) = _
  after_results
  exact W4_arg4 m ρ c
theorem W5_v25 (c : Dev nD) : W5 m ρ c (Proc.devRef .tc main_v25) = W4 m ρ c (Proc.devRef .tc main_v25) := by
  show StableHlo.after hostOps2 (W4 m ρ c) (Proc.devRef .tc main_v25) = _
  after_results

/-! ### After the third region, and the last host stretch -/

/-- The third region leaves the items' output rows in its output array. -/
theorem W6_v27 (c : Dev nD) : W6 m ρ c (Proc.devRef .tc main_v27) =
    Spec.postArr ((launched m c main_arg1))
      (segI ((launched m c main_arg0)) ((launched m c main_arg1)) ((launched m c main_arg2)) ((launched m c main_arg4)) ((launched m c main_arg5)) ((launched m c main_arg6)) ((launched m c main_arg7)) ((launched m c main_arg8)) ((launched m c main_arg9)))
      ((launched m c main_arg4)) (fun k => (launched m c main_arg5) (ix1 k)) := by
  refine (W6_arr m ρ c 4).trans ((RegionsItem.node_item (V5 m ρ) c).trans ?_)
  have h26 : (fun k : Fin 64 => V5 m ρ c main_v26 (ix2 (0 : Fin 1) k)) = fun k => (launched m c main_arg5) (ix1 k) :=
    funext fun k => by rw [V5_v26]; exact shapeCast_a_1a_apply _ _ 0 k
  rw [h26, V5_v20, V5_arg1, V5_arg4]

theorem W6_v25 (c : Dev nD) : W6 m ρ c (Proc.devRef .tc main_v25) =
    Spec.postArr ((launched m c main_arg0))
      (segU ((launched m c main_arg0)) ((launched m c main_arg1)) ((launched m c main_arg3)) ((launched m c main_arg4)) ((launched m c main_arg5)) ((launched m c main_arg6)) ((launched m c main_arg7)) ((launched m c main_arg8)) ((launched m c main_arg9)))
      ((launched m c main_arg4)) (fun k => (launched m c main_arg5) (ix1 k)) :=
  (W6_of_ne m ρ c main_v25 (by decide)).trans ((W5_v25 m ρ c).trans (W4_v25 m ρ c))

/-- THE RESULT BUFFER at the last boundary of @main is `result` of the argument arrays as launched. -/
theorem W7_result (c : Dev nD) : W7 m ρ c (Proc.devRef .tc main_v28) =
    result ((launched m c main_arg0)) ((launched m c main_arg1)) ((launched m c main_arg2)) ((launched m c main_arg3)) ((launched m c main_arg4)) ((launched m c main_arg5)) ((launched m c main_arg6)) ((launched m c main_arg7)) ((launched m c main_arg8)) ((launched m c main_arg9)) := by
  show StableHlo.after hostOps3 (W6 m ρ c) (Proc.devRef .tc main_v28) = _
  after_results
  rw [W6_v25, W6_v27]
  rfl

end Cert.KernelIdeal.Fold

end
-- ==== Proof.RefStages.lean ====
/-
  The reference program's stages, read entry by entry at the ideal instance, are the specification's functions.

  Along an edge, the message at feature `j` is the edge's weight times the sum of two affine images: the sender's
  row through the first weight matrix and bias, and the entrywise product of the two endpoint rows through the
  second. The stages %25 and %44 are this, the user's row (resp. the item's row) being the sender's.
  A node's output row is its activated row `h` divided by `max (‖h‖₂) ε`, where
  `h k = leaky (seg k + lin feat W b k)`; the stages %62 (users) and %72 (items) are this over the aggregated
  messages %47 and %28.
  Each proof reads the outermost stage at an index, then the stages below it one operation at a time; the coordinate
  maps that the broadcasts and contractions compose are identified with plain coordinates, and what is left is the
  same expression on both sides. The sum of squares starts from the zero word, which is the extended real 0; no other
  float word is evaluated.
-/
import proofs.«121884_j32341103739241_1_alg».proof.Proof.Gen.ReferenceIdeal.Read
import proofs.«121884_j32341103739241_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

variable (x0 : (⟨S500000x64, .f32⟩ : BufTy).Contents (Elt Ideal)) (x1 : (⟨S200000x64, .f32⟩ : BufTy).Contents (Elt Ideal))
  (x2 x3 : (⟨S1500000x1, .f32⟩ : BufTy).Contents (Elt Ideal)) (x4 x6 : (⟨S64x64, .f32⟩ : BufTy).Contents (Elt Ideal))
  (x5 x7 : (⟨S64, .f32⟩ : BufTy).Contents (Elt Ideal)) (x8 x9 : (⟨S1500000, .i32⟩ : BufTy).Contents (Elt Ideal))

/-- The user→item messages (%25). -/
theorem msg_ui_eq : val_main_v25 (F := Ideal) x0 x1 x2 x4 x5 x6 x7 x8 x9 =
    Spec.msgArr (fun e => x2 (ix2 e (0 : Fin 1))) (val_main_v6 (F := Ideal) x0 x8) (val_main_v6 (F := Ideal) x0 x8) (val_main_v13 (F := Ideal) x1 x9)
      x4 (fun k => x5 (ix1 k)) x6 (fun k => x7 (ix1 k)) := by
  funext i
  have e24 : idx_main_v24 i = ix2 (i 0) (0 : Fin 1) :=
    funext fun a => Fin.ext (by match a with | ⟨0, _⟩ => rfl | ⟨1, _⟩ => rfl)
  have el15 : ∀ k : Fin 64, lidx_main_v15 i k = ix2 (i 0) k := fun k =>
    funext fun a => Fin.ext (by match a with | ⟨0, _⟩ => rfl | ⟨1, _⟩ => rfl)
  have er15 : ∀ k : Fin 64, ridx_main_v15 i k = ix2 k (i 1) := fun k =>
    funext fun a => Fin.ext (by match a with | ⟨0, _⟩ => rfl | ⟨1, _⟩ => rfl)
  have el19 : ∀ k : Fin 64, lidx_main_v19 i k = ix2 (i 0) k := fun k =>
    funext fun a => Fin.ext (by match a with | ⟨0, _⟩ => rfl | ⟨1, _⟩ => rfl)
  have er19 : ∀ k : Fin 64, ridx_main_v19 i k = ix2 k (i 1) := fun k =>
    funext fun a => Fin.ext (by match a with | ⟨0, _⟩ => rfl | ⟨1, _⟩ => rfl)
  have e16 : idx_main_v16 (idx_main_v17 i) = ix1 (i 1) :=
    funext fun a => Fin.ext (by match a with | ⟨0, _⟩ => rfl)
  have e20 : idx_main_v20 (idx_main_v21 i) = ix1 (i 1) :=
    funext fun a => Fin.ext (by match a with | ⟨0, _⟩ => rfl)
  rw [val_main_v25_apply, val_main_v24_apply, val_main_v23_apply, val_main_v18_apply, val_main_v15_apply,
    val_main_v17_apply, val_main_v16_apply, val_main_v22_apply, val_main_v19_apply, val_main_v21_apply,
    val_main_v20_apply]
  simp only [val_main_v14_apply, e24, el15, er15, el19, er19, e16, e20, Ideal.mulf_def, Ideal.addf_def]
  unfold Spec.msgArr Spec.msg Spec.lin
  rfl

/-- The item→user messages (%44). -/
theorem msg_iu_eq : val_main_v44 (F := Ideal) x0 x1 x3 x4 x5 x6 x7 x8 x9 =
    Spec.msgArr (fun e => x3 (ix2 e (0 : Fin 1))) (val_main_v13 (F := Ideal) x1 x9) (val_main_v6 (F := Ideal) x0 x8) (val_main_v13 (F := Ideal) x1 x9)
      x4 (fun k => x5 (ix1 k)) x6 (fun k => x7 (ix1 k)) := by
  funext i
  have e43 : idx_main_v43 i = ix2 (i 0) (0 : Fin 1) :=
    funext fun a => Fin.ext (by match a with | ⟨0, _⟩ => rfl | ⟨1, _⟩ => rfl)
  have el34 : ∀ k : Fin 64, lidx_main_v34 i k = ix2 (i 0) k := fun k =>
    funext fun a => Fin.ext (by match a with | ⟨0, _⟩ => rfl | ⟨1, _⟩ => rfl)
  have er34 : ∀ k : Fin 64, ridx_main_v34 i k = ix2 k (i 1) := fun k =>
    funext fun a => Fin.ext (by match a with | ⟨0, _⟩ => rfl | ⟨1, _⟩ => rfl)
  have el38 : ∀ k : Fin 64, lidx_main_v38 i k = ix2 (i 0) k := fun k =>
    funext fun a => Fin.ext (by match a with | ⟨0, _⟩ => rfl | ⟨1, _⟩ => rfl)
  have er38 : ∀ k : Fin 64, ridx_main_v38 i k = ix2 k (i 1) := fun k =>
    funext fun a => Fin.ext (by match a with | ⟨0, _⟩ => rfl | ⟨1, _⟩ => rfl)
  have e35 : idx_main_v35 (idx_main_v36 i) = ix1 (i 1) :=
    funext fun a => Fin.ext (by match a with | ⟨0, _⟩ => rfl)
  have e39 : idx_main_v39 (idx_main_v40 i) = ix1 (i 1) :=
    funext fun a => Fin.ext (by match a with | ⟨0, _⟩ => rfl)
  rw [val_main_v44_apply, val_main_v43_apply, val_main_v42_apply, val_main_v37_apply, val_main_v34_apply,
    val_main_v36_apply, val_main_v35_apply, val_main_v41_apply, val_main_v38_apply, val_main_v40_apply,
    val_main_v39_apply]
  simp only [val_main_v14_apply, e43, el34, er34, el38, er38, e35, e39, Ideal.mulf_def, Ideal.addf_def]
  unfold Spec.msgArr Spec.msg Spec.lin
  rfl

/-- A user's activated entry (%57) at row `p`, feature `q`: LeakyReLU of the aggregated messages plus the row's
    linear image. -/
private theorem act_user (p : Fin 500000) (q : Fin 64) :
    val_main_v57 (F := Ideal) x0 x1 x3 x4 x5 x6 x7 x8 x9 (ix2 p q) =
      Spec.act (fun k => x0 (ix2 p k)) (fun k => val_main_v47 (F := Ideal) x0 x1 x3 x4 x5 x6 x7 x8 x9 (ix2 p k))
        x4 (fun k => x5 (ix1 k)) q := by
  have el : ∀ k : Fin 64, lidx_main_v48 (ix2 p q) k = ix2 p k := fun k =>
    funext fun a => Fin.ext (by match a with | ⟨0, _⟩ => rfl | ⟨1, _⟩ => rfl)
  have er : ∀ k : Fin 64, ridx_main_v48 (ix2 p q) k = ix2 k q := fun k =>
    funext fun a => Fin.ext (by match a with | ⟨0, _⟩ => rfl | ⟨1, _⟩ => rfl)
  have eb : idx_main_v49 (idx_main_v50 (ix2 p q)) = ix1 q :=
    funext fun a => Fin.ext (by match a with | ⟨0, _⟩ => rfl)
  rw [val_main_v57_apply, val_main_v54_apply, val_main_v56_apply, val_main_v55_apply, val_main_v53_apply,
    val_main_cst_4_apply, val_main_cst_5_apply, val_main_v52_apply, val_main_v51_apply, val_main_v48_apply,
    val_main_v50_apply, val_main_v49_apply]
  simp only [el, er, eb, Ideal.mulf_def, Ideal.addf_def, Ideal.cmpf_def, Ideal.ofBits_def]
  unfold Spec.act Spec.leaky Spec.lin
  with_reducible_and_instances rfl

/-- The users' output rows (%62), over the aggregated item→user messages (%47). -/
theorem post_user_eq : val_main_v62 (F := Ideal) x0 x1 x3 x4 x5 x6 x7 x8 x9 =
    Spec.postArr x0 (val_main_v47 (F := Ideal) x0 x1 x3 x4 x5 x6 x7 x8 x9) x4 (fun k => x5 (ix1 k)) := by
  funext i
  obtain ⟨p, q, rfl⟩ : ∃ (p : Fin 500000) (q : Fin 64), i = ix2 p q := ⟨i 0, i 1, eq_ix2 i⟩
  have en : ∀ k : Fin 64, idx_main_call1_v1 (idx_main_call1_v2 (idx_main_v61 (ix2 p q))) k = ix2 p k := fun k =>
    funext fun a => Fin.ext (by match a with | ⟨0, _⟩ => rfl | ⟨1, _⟩ => rfl)
  rw [val_main_v62_apply, val_main_v61_apply, val_main_v60_apply, val_main_v59_apply, val_main_cst_6_apply,
    val_main_v58_apply, val_main_call1_v2_apply, val_main_call1_v1_apply, val_main_call1_cst_apply]
  have hs : (∑ k : Fin 64, val_main_call1_v0 (F := Ideal) x0 x1 x3 x4 x5 x6 x7 x8 x9
        (idx_main_call1_v1 (idx_main_call1_v2 (idx_main_v61 (ix2 p q))) k)) =
      ∑ k : Fin 64,
        Spec.act (fun k => x0 (ix2 p k)) (fun k => val_main_v47 (F := Ideal) x0 x1 x3 x4 x5 x6 x7 x8 x9 (ix2 p k))
            x4 (fun k => x5 (ix1 k)) k *
          Spec.act (fun k => x0 (ix2 p k)) (fun k => val_main_v47 (F := Ideal) x0 x1 x3 x4 x5 x6 x7 x8 x9 (ix2 p k))
            x4 (fun k => x5 (ix1 k)) k :=
    Finset.sum_congr rfl fun k _ => by
      rw [en k, val_main_call1_v0_apply, act_user, Ideal.mulf_def]
  rw [hs, act_user]
  simp only [Ideal.hostDivf_def, Ideal.hostUnary_sqrt_def, Ideal.maximumf_def, Ideal.ofBits_def]
  rw [Ideal.ofBits_zero_f32, zero_add]
  unfold Spec.postArr Spec.post
  with_reducible_and_instances rfl

/-- An item's activated entry (%67) at row `p`, feature `q`: LeakyReLU of the aggregated messages plus the row's
    linear image. -/
private theorem act_item (p : Fin 200000) (q : Fin 64) :
    val_main_v67 (F := Ideal) x0 x1 x2 x4 x5 x6 x7 x8 x9 (ix2 p q) =
      Spec.act (fun k => x1 (ix2 p k)) (fun k => val_main_v28 (F := Ideal) x0 x1 x2 x4 x5 x6 x7 x8 x9 (ix2 p k))
        x4 (fun k => x5 (ix1 k)) q := by
  have el : ∀ k : Fin 64, lidx_main_v29 (ix2 p q) k = ix2 p k := fun k =>
    funext fun a => Fin.ext (by match a with | ⟨0, _⟩ => rfl | ⟨1, _⟩ => rfl)
  have er : ∀ k : Fin 64, ridx_main_v29 (ix2 p q) k = ix2 k q := fun k =>
    funext fun a => Fin.ext (by match a with | ⟨0, _⟩ => rfl | ⟨1, _⟩ => rfl)
  have eb : idx_main_v30 (idx_main_v31 (ix2 p q)) = ix1 q :=
    funext fun a => Fin.ext (by match a with | ⟨0, _⟩ => rfl)
  rw [val_main_v67_apply, val_main_v64_apply, val_main_v66_apply, val_main_v65_apply, val_main_v63_apply,
    val_main_cst_7_apply, val_main_cst_8_apply, val_main_v33_apply, val_main_v32_apply, val_main_v29_apply,
    val_main_v31_apply, val_main_v30_apply]
  simp only [el, er, eb, Ideal.mulf_def, Ideal.addf_def, Ideal.cmpf_def, Ideal.ofBits_def]
  unfold Spec.act Spec.leaky Spec.lin
  with_reducible_and_instances rfl

/-- The items' output rows (%72), over the aggregated user→item messages (%28). -/
theorem post_item_eq : val_main_v72 (F := Ideal) x0 x1 x2 x4 x5 x6 x7 x8 x9 =
    Spec.postArr x1 (val_main_v28 (F := Ideal) x0 x1 x2 x4 x5 x6 x7 x8 x9) x4 (fun k => x5 (ix1 k)) := by
  funext i
  obtain ⟨p, q, rfl⟩ : ∃ (p : Fin 200000) (q : Fin 64), i = ix2 p q := ⟨i 0, i 1, eq_ix2 i⟩
  have en : ∀ k : Fin 64, idx_main_call3_v1 (idx_main_call3_v2 (idx_main_v71 (ix2 p q))) k = ix2 p k := fun k =>
    funext fun a => Fin.ext (by match a with | ⟨0, _⟩ => rfl | ⟨1, _⟩ => rfl)
  rw [val_main_v72_apply, val_main_v71_apply, val_main_v70_apply, val_main_v69_apply, val_main_cst_9_apply,
    val_main_v68_apply, val_main_call3_v2_apply, val_main_call3_v1_apply, val_main_call3_cst_apply]
  have hs : (∑ k : Fin 64, val_main_call3_v0 (F := Ideal) x0 x1 x2 x4 x5 x6 x7 x8 x9
        (idx_main_call3_v1 (idx_main_call3_v2 (idx_main_v71 (ix2 p q))) k)) =
      ∑ k : Fin 64,
        Spec.act (fun k => x1 (ix2 p k)) (fun k => val_main_v28 (F := Ideal) x0 x1 x2 x4 x5 x6 x7 x8 x9 (ix2 p k))
            x4 (fun k => x5 (ix1 k)) k *
          Spec.act (fun k => x1 (ix2 p k)) (fun k => val_main_v28 (F := Ideal) x0 x1 x2 x4 x5 x6 x7 x8 x9 (ix2 p k))
            x4 (fun k => x5 (ix1 k)) k :=
    Finset.sum_congr rfl fun k _ => by
      rw [en k, val_main_call3_v0_apply, act_item, Ideal.mulf_def]
  rw [hs, act_item]
  simp only [Ideal.hostDivf_def, Ideal.hostUnary_sqrt_def, Ideal.maximumf_def, Ideal.ofBits_def]
  rw [Ideal.ofBits_zero_f32, zero_add]
  unfold Spec.postArr Spec.post
  with_reducible_and_instances rfl

end Cert.ReferenceIdeal.RefValue

end
-- ==== Proof.Claims.lean ====
/-
  The five claims.

  The frames of the two kernel programs are the generated frame certificates; the reference's frame is its generated run
  with the result dropped; the idealization rewrote nothing, so `preserves` is `True`. For the value claim both programs
  are run with their result array named: the idealized kernel's result buffer, read back through @main
  (`Fold.W7_result`), is `Fold.result` of the argument arrays; the reference's run ends at its composed term, whose last
  stage is a concatenation of the two post-processed arrays. Each of those is the specification's `postArr` of the node
  features and the scatter-added messages, and the messages are the specification's `msgArr` of the gathered rows
  (the four stage lemmas); the gathers, the scatter-adds and the concatenation are the same host operations on the same
  index arrays in both programs, so the two terms are one.
-/
import proofs.«121884_j32341103739241_1_alg».proof.Defs
import proofs.«121884_j32341103739241_1_alg».proof.Proof.Gen.Kernel.Frame
import proofs.«121884_j32341103739241_1_alg».proof.Proof.Gen.KernelIdeal.Frame
import proofs.«121884_j32341103739241_1_alg».proof.Proof.Gen.ReferenceIdeal
import proofs.«121884_j32341103739241_1_alg».proof.Proof.Gen.ReferenceIdeal.Run
import proofs.«121884_j32341103739241_1_alg».proof.Proof.Gen.ReferenceIdeal.Read
import proofs.«121884_j32341103739241_1_alg».proof.Proof.Gen.Pre_finite_inputs
import proofs.«121884_j32341103739241_1_alg».proof.Proof.RunNamed
import proofs.«121884_j32341103739241_1_alg».proof.Proof.Fold
import proofs.«121884_j32341103739241_1_alg».proof.Proof.RefStages

set_option maxRecDepth 16384

noncomputable section

open Idealize.ShloMosaic Idealize.ShloMosaic.TcCoe Idealize.SL.Sem

namespace Cert.ReferenceIdeal.RefValue

open Cert.ReferenceIdeal Cert.ReferenceIdeal.Read

/-- The reference's last stage is the kernel's closed term of the same ten arrays. -/
theorem result_eq (x0 : (⟨S500000x64, .f32⟩ : BufTy).Contents (Elt Ideal)) (x1 : (⟨S200000x64, .f32⟩ : BufTy).Contents (Elt Ideal))
    (x2 x3 : (⟨S1500000x1, .f32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 x9 : (⟨S1500000, .i32⟩ : BufTy).Contents (Elt Ideal)) :
    val_main_v73 (F := Ideal) x0 x1 x2 x3 x4 x5 x6 x7 x8 x9 = Cert.KernelIdeal.Fold.result x0 x1 x2 x3 x4 x5 x6 x7 x8 x9 := by
  unfold val_main_v73
  rw [post_user_eq, post_item_eq]
  unfold val_main_v47 val_main_v28
  rw [msg_iu_eq, msg_ui_eq]
  rfl

end Cert.ReferenceIdeal.RefValue

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result array at `Fold.result` of the arguments. -/
theorem algebraic : Cert.algebraic_KernelIdeal_ReferenceIdeal := by
  intro m ρ m' ρ' _ hagree
  refine ⟨fun c => Cert.KernelIdeal.Fold.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.W7_result m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v73_eq, Cert.ReferenceIdeal.RefValue.result_eq, h0, h1, h2, h3, h4, h5, h6, h7, h8, h9]

end Cert.Proof.Claims

end
-- ==== Proof.lean ====
/- The proof of `Cert.Claim`: the idealized kernel (three kernel regions among host gathers and scatter-adds) and the
   reference compute the same function of their arguments on the extended reals.
   Proof/Spec.lean states that function entry by entry; Proof/EdgeRegion.lean, Proof/NodeUser.lean and Proof/NodeItem.lean
   read each kernel region's output arrays as the specification's whole-array functions of the region's input arrays;
   Proof/RunNamed.lean runs @main with the result array named and Proof/Fold.lean reads that array back through @main to
   one closed term of the arguments; Proof/RefStages.lean reads the reference's stages as the same functions; and
   Proof/Claims.lean sets the two runs side by side and proves the five claims, assembled here behind the witnesses of
   the programs' stated facts. -/
import proofs.«121884_j32341103739241_1_alg».proof.Defs
import proofs.«121884_j32341103739241_1_alg».proof.Proof.Gen.Kernel
import proofs.«121884_j32341103739241_1_alg».proof.Proof.Gen.Kernel.Skeleton
import proofs.«121884_j32341103739241_1_alg».proof.Proof.Gen.Kernel.Launch
import proofs.«121884_j32341103739241_1_alg».proof.Proof.Gen.Kernel.Points
import proofs.«121884_j32341103739241_1_alg».proof.Proof.Gen.Kernel.Frame
import proofs.«121884_j32341103739241_1_alg».proof.Proof.Gen.KernelIdeal
import proofs.«121884_j32341103739241_1_alg».proof.Proof.Gen.KernelIdeal.Skeleton
import proofs.«121884_j32341103739241_1_alg».proof.Proof.Gen.KernelIdeal.Launch
import proofs.«121884_j32341103739241_1_alg».proof.Proof.Gen.KernelIdeal.Points
import proofs.«121884_j32341103739241_1_alg».proof.Proof.Gen.KernelIdeal.Frame
import proofs.«121884_j32341103739241_1_alg».proof.Proof.Gen.ReferenceIdeal
import proofs.«121884_j32341103739241_1_alg».proof.Proof.Gen.Pre_finite_inputs
import proofs.«121884_j32341103739241_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
